-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x48x256x256 : Shape := ⟨4, ![16, 48, 256, 256]⟩
abbrev S16x512x256 : Shape := ⟨3, ![16, 512, 256]⟩
abbrev S256x32 : Shape := ⟨2, ![256, 32]⟩
abbrev S32 : Shape := ⟨1, ![32]⟩
abbrev S16x512x2 : Shape := ⟨3, ![16, 512, 2]⟩
abbrev S_ : Shape := ⟨0, ![]⟩

class Facts : Prop where
  bcast_S_S16x48x256x256 : S_.BroadcastsInDim S16x48x256x256 (![] : Fin 0 → Fin S16x48x256x256.rank)
  reducesTo_S16x48x256x256_S_d0_1_2_3 : S16x48x256x256.ReducesTo [0, 1, 2, 3] S_
  h_S_ : 0 < S_.numel
  bcast_S_S16x512x256 : S_.BroadcastsInDim S16x512x256 (![] : Fin 0 → Fin S16x512x256.rank)
  reducesTo_S16x512x256_S_d0_1_2 : S16x512x256.ReducesTo [0, 1, 2] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S16x48x256x256 .f32) (main_arg1 : FVec F S16x512x256 .f32) (main_arg2 : FVec F S256x32 .f32) (main_arg3 : FVec F S32 .f32) (main_arg4 : IVec S16x512x2 32) : IVec S_ 1 :=
  let main_v0 : FVec F S16x48x256x256 .f32 := Host.absf main_arg0
  let main_cst : FVec F S_ .f32 := constant S_ .f32 0x7F800000#32
  let main_v1 : FVec F S16x48x256x256 .f32 := broadcastInDim S16x48x256x256 ![] bcast_S_S16x48x256x256 main_cst
  let main_v2 : IVec S16x48x256x256 1 := cmpf .olt main_v0 main_v1
  let main_c : IVec S_ 1 := constantI S_ 1 1#1
  let main_v3 : IVec S_ 1 := (fun x v => Host.reduce IntOp.andi x v reducesTo_S16x48x256x256_S_d0_1_2_3 h_S_) main_v2 main_c
  let main_v4 : FVec F S16x512x256 .f32 := Host.absf main_arg1
  let main_cst_0 : FVec F S_ .f32 := constant S_ .f32 0x7F800000#32
  let main_v5 : FVec F S16x512x256 .f32 := broadcastInDim S16x512x256 ![] bcast_S_S16x512x256 main_cst_0
  let main_v6 : IVec S16x512x256 1 := cmpf .olt main_v4 main_v5
  let main_c_1 : IVec S_ 1 := constantI S_ 1 1#1
  let main_v7 : IVec S_ 1 := (fun x v => Host.reduce IntOp.andi x v reducesTo_S16x512x256_S_d0_1_2 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S16x48x256x256 : Shape := ⟨4, ![16, 48, 256, 256]⟩
abbrev S16x512x256 : Shape := ⟨3, ![16, 512, 256]⟩
abbrev S256x32 : Shape := ⟨2, ![256, 32]⟩
abbrev S32 : Shape := ⟨1, ![32]⟩
abbrev S16x512x2 : Shape := ⟨3, ![16, 512, 2]⟩
abbrev S8192x256 : Shape := ⟨2, ![8192, 256]⟩
abbrev S1x32 : Shape := ⟨2, ![1, 32]⟩
abbrev S8192x32 : Shape := ⟨2, ![8192, 32]⟩
abbrev S1024x256 : Shape := ⟨2, ![1024, 256]⟩
abbrev S1024x32 : Shape := ⟨2, ![1024, 32]⟩
abbrev S16x512x32 : Shape := ⟨3, ![16, 512, 32]⟩
abbrev S16x512x1 : Shape := ⟨3, ![16, 512, 1]⟩
abbrev S16x512 : Shape := ⟨2, ![16, 512]⟩
abbrev S16 : Shape := ⟨1, ![16]⟩
abbrev S16x1 : Shape := ⟨2, ![16, 1]⟩
abbrev S_ : Shape := ⟨0, ![]⟩
abbrev S16x256x256x32 : Shape := ⟨4, ![16, 256, 256, 32]⟩
abbrev S16x512x3 : Shape := ⟨3, ![16, 512, 3]⟩
abbrev S16x32x256x256 : Shape := ⟨4, ![16, 32, 256, 256]⟩
abbrev S16x80x256x256 : Shape := ⟨4, ![16, 80, 256, 256]⟩
abbrev S1x48x64x256 : Shape := ⟨4, ![1, 48, 64, 256]⟩
abbrev S1x32x64x256 : Shape := ⟨4, ![1, 32, 64, 256]⟩
abbrev S1x80x64x256 : Shape := ⟨4, ![1, 80, 64, 256]⟩

abbrev nBuf : Space → Nat
  | .hbm => 46
  | .vmem => 12
  | .smem => 0
  | _ => 0

abbrev bufTy : (tb : Table) → Fin (tcTables nBuf tb) → BufTy
  | .hbm, ⟨0, _⟩ => ⟨S16x48x256x256, .f32⟩
  | .hbm, ⟨1, _⟩ => ⟨S16x512x256, .f32⟩
  | .hbm, ⟨2, _⟩ => ⟨S256x32, .f32⟩
  | .hbm, ⟨3, _⟩ => ⟨S32, .f32⟩
  | .hbm, ⟨4, _⟩ => ⟨S16x512x2, .i32⟩
  | .hbm, ⟨5, _⟩ => ⟨S8192x256, .f32⟩
  | .hbm, ⟨6, _⟩ => ⟨S1x32, .f32⟩
  | .hbm, ⟨7, _⟩ => ⟨S8192x32, .f32⟩
  | .hbm, ⟨8, _⟩ => ⟨S16x512x32, .f32⟩
  | .hbm, ⟨9, _⟩ => ⟨S16x512x1, .i32⟩
  | .hbm, ⟨10, _⟩ => ⟨S16x512, .i32⟩
  | .hbm, ⟨11, _⟩ => ⟨S16x512x1, .i32⟩
  | .hbm, ⟨12, _⟩ => ⟨S16x512, .i32⟩
  | .hbm, ⟨13, _⟩ => ⟨S16, .i32⟩
  | .hbm, ⟨14, _⟩ => ⟨S16x1, .i32⟩
  | .hbm, ⟨15, _⟩ => ⟨S_, .f32⟩
  | .hbm, ⟨16, _⟩ => ⟨S16x256x256x32, .f32⟩
  | .hbm, ⟨17, _⟩ => ⟨S_, .i32⟩
  | .hbm, ⟨18, _⟩ => ⟨S16x1, .i32⟩
  | .hbm, ⟨19, _⟩ => ⟨S16x1, .i1⟩
  | .hbm, ⟨20, _⟩ => ⟨S_, .i32⟩
  | .hbm, ⟨21, _⟩ => ⟨S16x1, .i32⟩
  | .hbm, ⟨22, _⟩ => ⟨S16x1, .i32⟩
  | .hbm, ⟨23, _⟩ => ⟨S16x1, .i32⟩
  | .hbm, ⟨24, _⟩ => ⟨S_, .i32⟩
  | .hbm, ⟨25, _⟩ => ⟨S16x512, .i32⟩
  | .hbm, ⟨26, _⟩ => ⟨S16x512, .i1⟩
  | .hbm, ⟨27, _⟩ => ⟨S_, .i32⟩
  | .hbm, ⟨28, _⟩ => ⟨S16x512, .i32⟩
  | .hbm, ⟨29, _⟩ => ⟨S16x512, .i32⟩
  | .hbm, ⟨30, _⟩ => ⟨S16x512, .i32⟩
  | .hbm, ⟨31, _⟩ => ⟨S_, .i32⟩
  | .hbm, ⟨32, _⟩ => ⟨S16x512, .i32⟩
  | .hbm, ⟨33, _⟩ => ⟨S16x512, .i1⟩
  | .hbm, ⟨34, _⟩ => ⟨S_, .i32⟩
  | .hbm, ⟨35, _⟩ => ⟨S16x512, .i32⟩
  | .hbm, ⟨36, _⟩ => ⟨S16x512, .i32⟩
  | .hbm, ⟨37, _⟩ => ⟨S16x512, .i32⟩
  | .hbm, ⟨38, _⟩ => ⟨S16x512, .i32⟩
  | .hbm, ⟨39, _⟩ => ⟨S16x512x1, .i32⟩
  | .hbm, ⟨40, _⟩ => ⟨S16x512x1, .i32⟩
  | .hbm, ⟨41, _⟩ => ⟨S16x512x1, .i32⟩
  | .hbm, ⟨42, _⟩ => ⟨S16x512x3, .i32⟩
  | .hbm, ⟨43, _⟩ => ⟨S16x256x256x32, .f32⟩
  | .hbm, ⟨44, _⟩ => ⟨S16x32x256x256, .f32⟩
  | .hbm, ⟨45, _⟩ => ⟨S16x80x256x256, .f32⟩
  | .local _ .vmem, ⟨0, _⟩ => ⟨S1024x256, .f32⟩
  | .local _ .vmem, ⟨1, _⟩ => ⟨S1024x256, .f32⟩
  | .local _ .vmem, ⟨2, _⟩ => ⟨S256x32, .f32⟩
  | .local _ .vmem, ⟨3, _⟩ => ⟨S1x32, .f32⟩
  | .local _ .vmem, ⟨4, _⟩ => ⟨S1024x32, .f32⟩
  | .local _ .vmem, ⟨5, _⟩ => ⟨S1024x32, .f32⟩
  | .local _ .vmem, ⟨6, _⟩ => ⟨S1x48x64x256, .f32⟩
  | .local _ .vmem, ⟨7, _⟩ => ⟨S1x48x64x256, .f32⟩
  | .local _ .vmem, ⟨8, _⟩ => ⟨S1x32x64x256, .f32⟩
  | .local _ .vmem, ⟨9, _⟩ => ⟨S1x32x64x256, .f32⟩
  | .local _ .vmem, ⟨10, _⟩ => ⟨S1x80x64x256, .f32⟩
  | .local _ .vmem, ⟨11, _⟩ => ⟨S1x80x64x256, .f32⟩
  | _, _ => ⟨S16x48x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x48x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x80x64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16x512x256_S8192x256 : S16x512x256.ShapeCasts S8192x256
  shapeCasts_S32_S1x32 : S32.ShapeCasts S1x32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S1024x32_S1024x32_0_0 : ∀ a, (![0, 0] : Fin 2 → Nat) a + S1024x32.size a ≤ S1024x32.size a
  h_S1024x32 : 0 < S1024x32.numel
  shapeCasts_S8192x32_S16x512x32 : S8192x32.ShapeCasts S16x512x32
  slices_S16x512x2_S16x512x1_0_0_0 : S16x512x2.Slices ![0, 0, 0] S16x512x1
  shapeCasts_S16x512x1_S16x512 : S16x512x1.ShapeCasts S16x512
  slices_S16x512x2_S16x512x1_0_0_1 : S16x512x2.Slices ![0, 0, 1] S16x512x1
  bcast_S16_S16x1_0 : S16.BroadcastsInDim S16x1 (![0] : Fin 1 → Fin S16x1.rank)
  bcast_S_S16x256x256x32 : S_.BroadcastsInDim S16x256x256x32 (![] : Fin 0 → Fin S16x256x256x32.rank)
  bcast_S_S16x1 : S_.BroadcastsInDim S16x1 (![] : Fin 0 → Fin S16x1.rank)
  bcast_S_S16x512 : S_.BroadcastsInDim S16x512 (![] : Fin 0 → Fin S16x512.rank)
  bcast_S16x1_S16x512_0_1 : S16x1.BroadcastsInDim S16x512 (![0, 1] : Fin 2 → Fin S16x512.rank)
  bcast_S16x512_S16x512x1_0_1 : S16x512.BroadcastsInDim S16x512x1 (![0, 1] : Fin 2 → Fin S16x512x1.rank)
  concatenates_S16x512x1_S16x512x1_S16x512x1_S16x512x3_d2 : Shape.Concatenates [S16x512x1, S16x512x1, S16x512x1] S16x512x3 2
  transposes_S16x256x256x32_S16x32x256x256_0_3_1_2 : S16x256x256x32.Transposes [0, 3, 1, 2] S16x32x256x256
  inb_S1x48x64x256_S1x48x64x256_0_0_0_0 : ∀ a, (![0, 0, 0, 0] : Fin 4 → Nat) a + S1x48x64x256.size a ≤ S1x48x64x256.size a
  h_S1x48x64x256 : 0 < S1x48x64x256.numel
  inb_S1x80x64x256_S1x48x64x256_0_0_0_0 : ∀ a, (![0, 0, 0, 0] : Fin 4 → Nat) a + S1x48x64x256.size a ≤ S1x80x64x256.size a
  inb_S1x32x64x256_S1x32x64x256_0_0_0_0 : ∀ a, (![0, 0, 0, 0] : Fin 4 → Nat) a + S1x32x64x256.size a ≤ S1x32x64x256.size a
  h_S1x32x64x256 : 0 < S1x32x64x256.numel
  shapeCasts_S1x32x64x256_S1x32x64x256 : S1x32x64x256.ShapeCasts S1x32x64x256
  inb_S1x80x64x256_S1x32x64x256_0_48_0_0 : ∀ a, (![0, 48, 0, 0] : Fin 4 → Nat) a + S1x32x64x256.size a ≤ S1x80x64x256.size a
  dot_S1024x256_S256x32_S1024x32_1_0_0_1_n_n_wf : DotDims.WF S1024x256 S256x32 S1024x32 [1] [0] [0] [1] [] []
  scatter_S16x256x256x32_S16x512x3_S16x512x32_2_012_012_2_wf : ScatterDims.WF S16x256x256x32 S16x512x3 S16x512x32 [2] [0, 1, 2] [0, 1, 2] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S8192x32.size a
  hwx0_3 : ∀ i : grid0.Coords, EltTy.bits .f32 = 32 ∨ (Rect.block (s := S8192x32) S1024x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x48x64x256.size a ≤ S16x48x256x256.size a
  hwx1_0 : ∀ i : grid1.Coords, EltTy.bits .f32 = 32 ∨ (Rect.block (s := S16x48x256x256) S1x48x64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x64x256.size a ≤ S16x32x256x256.size a
  hwx1_1 : ∀ i : grid1.Coords, EltTy.bits .f32 = 32 ∨ (Rect.block (s := S16x32x256x256) S1x32x64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x80x64x256.size a ≤ S16x80x256x256.size a
  hwx1_2 : ∀ i : grid1.Coords, EltTy.bits .f32 = 32 ∨ (Rect.block (s := S16x80x256x256) S1x80x64x256.size (cc1_transform_2 i) (hinb1_2 i)).WholeWords (EltTy.packing .f32)

variable [Facts₀]

def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def scatter_S16x256x256x32_S16x512x3_S16x512x32_2_012_012_2 : ScatterDims S16x256x256x32 S16x512x3 S16x512x32 where
  updateWindowDims := [2]
  insertedWindowDims := [0, 1, 2]
  scatterDimsToOperandDims := [0, 1, 2]
  indexVectorDim := 2
  wf := scatter_S16x256x256x32_S16x512x3_S16x512x32_2_012_012_2_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x48x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x32x64x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x80x64x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x48x256x256 : Shape := ⟨4, ![16, 48, 256, 256]⟩
abbrev S16x512x256 : Shape := ⟨3, ![16, 512, 256]⟩
abbrev S256x32 : Shape := ⟨2, ![256, 32]⟩
abbrev S32 : Shape := ⟨1, ![32]⟩
abbrev S16x512x2 : Shape := ⟨3, ![16, 512, 2]⟩
abbrev S16x512x32 : Shape := ⟨3, ![16, 512, 32]⟩
abbrev S1x1x32 : Shape := ⟨3, ![1, 1, 32]⟩
abbrev S16x512x1 : Shape := ⟨3, ![16, 512, 1]⟩
abbrev S16x512 : Shape := ⟨2, ![16, 512]⟩
abbrev S16 : Shape := ⟨1, ![16]⟩
abbrev S16x1 : Shape := ⟨2, ![16, 1]⟩
abbrev S_ : Shape := ⟨0, ![]⟩
abbrev S16x256x256x32 : Shape := ⟨4, ![16, 256, 256, 32]⟩
abbrev S16x512x3 : Shape := ⟨3, ![16, 512, 3]⟩
abbrev S16x32x256x256 : Shape := ⟨4, ![16, 32, 256, 256]⟩
abbrev S16x80x256x256 : Shape := ⟨4, ![16, 80, 256, 256]⟩

abbrev nBuf : Space → Nat
  | .hbm => 46
  | .vmem => 0
  | .smem => 0
  | _ => 0

abbrev bufTy : (tb : Table) → Fin (tcTables nBuf tb) → BufTy
  | .hbm, ⟨0, _⟩ => ⟨S16x48x256x256, .f32⟩
  | .hbm, ⟨1, _⟩ => ⟨S16x512x256, .f32⟩
  | .hbm, ⟨2, _⟩ => ⟨S256x32, .f32⟩
  | .hbm, ⟨3, _⟩ => ⟨S32, .f32⟩
  | .hbm, ⟨4, _⟩ => ⟨S16x512x2, .i32⟩
  | .hbm, ⟨5, _⟩ => ⟨S16x512x32, .f32⟩
  | .hbm, ⟨6, _⟩ => ⟨S1x1x32, .f32⟩
  | .hbm, ⟨7, _⟩ => ⟨S16x512x32, .f32⟩
  | .hbm, ⟨8, _⟩ => ⟨S16x512x32, .f32⟩
  | .hbm, ⟨9, _⟩ => ⟨S16x512x1, .i32⟩
  | .hbm, ⟨10, _⟩ => ⟨S16x512, .i32⟩
  | .hbm, ⟨11, _⟩ => ⟨S16x512x1, .i32⟩
  | .hbm, ⟨12, _⟩ => ⟨S16x512, .i32⟩
  | .hbm, ⟨13, _⟩ => ⟨S16, .i32⟩
  | .hbm, ⟨14, _⟩ => ⟨S16x1, .i32⟩
  | .hbm, ⟨15, _⟩ => ⟨S_, .f32⟩
  | .hbm, ⟨16, _⟩ => ⟨S16x256x256x32, .f32⟩
  | .hbm, ⟨17, _⟩ => ⟨S_, .i32⟩
  | .hbm, ⟨18, _⟩ => ⟨S16x1, .i32⟩
  | .hbm, ⟨19, _⟩ => ⟨S16x1, .i1⟩
  | .hbm, ⟨20, _⟩ => ⟨S_, .i32⟩
  | .hbm, ⟨21, _⟩ => ⟨S16x1, .i32⟩
  | .hbm, ⟨22, _⟩ => ⟨S16x1, .i32⟩
  | .hbm, ⟨23, _⟩ => ⟨S16x1, .i32⟩
  | .hbm, ⟨24, _⟩ => ⟨S_, .i32⟩
  | .hbm, ⟨25, _⟩ => ⟨S16x512, .i32⟩
  | .hbm, ⟨26, _⟩ => ⟨S16x512, .i1⟩
  | .hbm, ⟨27, _⟩ => ⟨S_, .i32⟩
  | .hbm, ⟨28, _⟩ => ⟨S16x512, .i32⟩
  | .hbm, ⟨29, _⟩ => ⟨S16x512, .i32⟩
  | .hbm, ⟨30, _⟩ => ⟨S16x512, .i32⟩
  | .hbm, ⟨31, _⟩ => ⟨S_, .i32⟩
  | .hbm, ⟨32, _⟩ => ⟨S16x512, .i32⟩
  | .hbm, ⟨33, _⟩ => ⟨S16x512, .i1⟩
  | .hbm, ⟨34, _⟩ => ⟨S_, .i32⟩
  | .hbm, ⟨35, _⟩ => ⟨S16x512, .i32⟩
  | .hbm, ⟨36, _⟩ => ⟨S16x512, .i32⟩
  | .hbm, ⟨37, _⟩ => ⟨S16x512, .i32⟩
  | .hbm, ⟨38, _⟩ => ⟨S16x512, .i32⟩
  | .hbm, ⟨39, _⟩ => ⟨S16x512x1, .i32⟩
  | .hbm, ⟨40, _⟩ => ⟨S16x512x1, .i32⟩
  | .hbm, ⟨41, _⟩ => ⟨S16x512x1, .i32⟩
  | .hbm, ⟨42, _⟩ => ⟨S16x512x3, .i32⟩
  | .hbm, ⟨43, _⟩ => ⟨S16x256x256x32, .f32⟩
  | .hbm, ⟨44, _⟩ => ⟨S16x32x256x256, .f32⟩
  | .hbm, ⟨45, _⟩ => ⟨S16x80x256x256, .f32⟩
  | _, _ => ⟨S16x48x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S16x512x32_0_1_2 : S1x1x32.BroadcastsInDim S16x512x32 (![0, 1, 2] : Fin 3 → Fin S16x512x32.rank)
  slices_S16x512x2_S16x512x1_0_0_0 : S16x512x2.Slices ![0, 0, 0] S16x512x1
  shapeCasts_S16x512x1_S16x512 : S16x512x1.ShapeCasts S16x512
  slices_S16x512x2_S16x512x1_0_0_1 : S16x512x2.Slices ![0, 0, 1] S16x512x1
  bcast_S16_S16x1_0 : S16.BroadcastsInDim S16x1 (![0] : Fin 1 → Fin S16x1.rank)
  bcast_S_S16x256x256x32 : S_.BroadcastsInDim S16x256x256x32 (![] : Fin 0 → Fin S16x256x256x32.rank)
  bcast_S_S16x1 : S_.BroadcastsInDim S16x1 (![] : Fin 0 → Fin S16x1.rank)
  bcast_S_S16x512 : S_.BroadcastsInDim S16x512 (![] : Fin 0 → Fin S16x512.rank)
  bcast_S16x1_S16x512_0_1 : S16x1.BroadcastsInDim S16x512 (![0, 1] : Fin 2 → Fin S16x512.rank)
  bcast_S16x512_S16x512x1_0_1 : S16x512.BroadcastsInDim S16x512x1 (![0, 1] : Fin 2 → Fin S16x512x1.rank)
  concatenates_S16x512x1_S16x512x1_S16x512x1_S16x512x3_d2 : Shape.Concatenates [S16x512x1, S16x512x1, S16x512x1] S16x512x3 2
  transposes_S16x256x256x32_S16x32x256x256_0_3_1_2 : S16x256x256x32.Transposes [0, 3, 1, 2] S16x32x256x256
  concatenates_S16x48x256x256_S16x32x256x256_S16x80x256x256_d1 : Shape.Concatenates [S16x48x256x256, S16x32x256x256] S16x80x256x256 1
  dot_S16x512x256_S256x32_S16x512x32_2_0_01_1_n_n_wf : DotDims.WF S16x512x256 S256x32 S16x512x32 [2] [0] [0, 1] [1] [] []
  scatter_S16x256x256x32_S16x512x3_S16x512x32_2_012_012_2_wf : ScatterDims.WF S16x256x256x32 S16x512x3 S16x512x32 [2] [0, 1, 2] [0, 1, 2] 2

variable [Facts₀]

def dot_S16x512x256_S256x32_S16x512x32_2_0_01_1_n_n : DotDims S16x512x256 S256x32 S16x512x32 where
  lhsContracting := [2]
  rhsContracting := [0]
  lhsNonContracting := [0, 1]
  rhsNonContracting := [1]
  lhsBatch := []
  rhsBatch := []
  wf := dot_S16x512x256_S256x32_S16x512x32_2_0_01_1_n_n_wf
def scatter_S16x256x256x32_S16x512x3_S16x512x32_2_012_012_2 : ScatterDims S16x256x256x32 S16x512x3 S16x512x32 where
  updateWindowDims := [2]
  insertedWindowDims := [0, 1, 2]
  scatterDimsToOperandDims := [0, 1, 2]
  indexVectorDim := 2
  wf := scatter_S16x256x256x32_S16x512x3_S16x512x32_2_012_012_2_wf

class Facts : Prop extends Facts₀ where

variable [Facts]
-- ==== Proof.KbData.lean ====
/-
  The two kernel regions of the program, as data: for each region, a window's block at a grid point read off the array
  the region finds, what the kernel body leaves in the output window's staging buffer as a function of the input blocks,
  and the pipeline's record of arrays, per-point buffer contents and invariant. Then the contents of every buffer at the
  five boundaries of the program: launch, after the two reshapes, after the projection region, after the scatter
  stretch, after the concatenation region.
-/
import proofs.«176654_j36103495090600_1_alg».proof.Proof.Gen.Kernel.Launch
import proofs.«176654_j36103495090600_1_alg».proof.Proof.Gen.Kernel.Skeleton
import proofs.«176654_j36103495090600_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The projection region (pipeline 0): rows of `x` by the whole of `W` and the bias row -/

/-- Window `w`'s block at point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x256 := Rect.unit (s := S1024x256) ![0, 0] S1024x256.size inb_S1024x256_S1024x256_0_0
abbrev r0_1 : Rect S256x32 := Rect.unit (s := S256x32) ![0, 0] S256x32.size inb_S256x32_S256x32_0_0
abbrev r0_2 : Rect S1x32 := Rect.unit (s := S1x32) ![0, 0] S1x32.size inb_S1x32_S1x32_0_0
abbrev r0_3 : Rect S1024x32 := Rect.unit (s := S1024x32) ![0, 0] S1024x32.size inb_S1024x32_S1024x32_0_0

/-- The output block after the body: one whole-block store of the product of the row block with `W`, plus the bias row. -/
def out0_3 (x0 : Vec F S1024x256 .f32) (x1 : Vec F S256x32 .f32) (x2 : Vec F S1x32 .f32) : Vec F S1024x32 .f32 :=
  View.canon [⟨r0_3, k0_pay1 (View.ld x0 r0_0) (View.ld x1 r0_1) (View.ld x2 r0_2)⟩]

/-- The record of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The concatenation region (pipeline 1): a channel block of each input into its channel range of the output -/

/-- Window `w`'s block at point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x48x64x256 := Rect.unit (s := S1x48x64x256) ![0, 0, 0, 0] S1x48x64x256.size inb_S1x48x64x256_S1x48x64x256_0_0_0_0
abbrev r1_1 : Rect S1x32x64x256 := Rect.unit (s := S1x32x64x256) ![0, 0, 0, 0] S1x32x64x256.size inb_S1x32x64x256_S1x32x64x256_0_0_0_0
abbrev r1_lo : Rect S1x80x64x256 := Rect.unit (s := S1x80x64x256) ![0, 0, 0, 0] S1x48x64x256.size inb_S1x80x64x256_S1x48x64x256_0_0_0_0
abbrev r1_hi : Rect S1x80x64x256 := Rect.unit (s := S1x80x64x256) ![0, 48, 0, 0] S1x32x64x256.size inb_S1x80x64x256_S1x32x64x256_0_48_0_0

/-- The output block after the body: channels 0–47 from the first input's block, channels 48–79 from the second's
    (the later store listed first). -/
def out1_2 (x0 : Vec F S1x48x64x256 .f32) (x1 : Vec F S1x32x64x256 .f32) : Vec F S1x80x64x256 .f32 :=
  View.canon [⟨r1_hi, k1_pay1 (View.ld x1 r1_1)⟩, ⟨r1_lo, View.ld x0 r1_0⟩]

/-- The record of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

end Regions

/-! ## The buffers' contents at the five boundaries -/

/-- At launch. -/
abbrev W0 : Dev nD → Valuation τ sig (Elt F) := fun c b => (s₀ m ρ).mem ((c : Dev nD), b)
/-- After the two reshapes (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the scatter stretch (the concatenation region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the concatenation region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

end Cert.Kernel.Hand

end
-- ==== Proof.KbBody0.lean ====
/-
  The projection region's body at every grid point: the three input windows' staging buffers hold their blocks, the body
  loads them (and the output buffer, whose old contents it does not use), and leaves in the output buffer the product of
  the row block with `W` plus the bias row.
-/
import proofs.«176654_j36103495090600_1_alg».proof.Proof.KbData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not: unfetched, the block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole block, so it covers it. -/
theorem cover0_3 (p0 : Vec F S1024x32 .f32) (y : S1024x32.Idx) :
    ∃ pc ∈ ([⟨r0_3, p0⟩] : List (View.Piece (Elt F) S1024x32 .f32)), y ∈ pc.1.set :=
  View.cover_of_tiled [⟨r0_3, p0⟩] S1024x32.size (by rfl) y

set_option maxHeartbeats 1000000 in
/-- The body on whole staging memrefs: the inputs' at contents `x0`, `x1`, `x2` and the output's at anything; it ends with
    the inputs as they were and the output at `out0_3 x0 x1 x2`. -/
theorem sound_kernel0 (c : Dev nD) (E : Set ℕ) (i : grid0.Coords)
    (arg1 : Memref sig .tc .vmem S1024x256 .f32) (harg1 : arg1.IsWhole) (arg2 : Memref sig .tc .vmem S256x32 .f32) (harg2 : arg2.IsWhole)
    (arg3 : Memref sig .tc .vmem S1x32 .f32) (harg3 : arg3.IsWhole) (arg4 : Memref sig .tc .vmem S1024x32 .f32) (harg4 : arg4.IsWhole)
    (x0 : Vec F S1024x256 .f32) (x1 : Vec F S256x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbBody1.lean ====
/-
  The concatenation region's body at every grid point: the two input windows' staging buffers hold their blocks, the body
  copies the first into channels 0–47 of the output buffer and the second into channels 48–79.
-/
import proofs.«176654_j36103495090600_1_alg».proof.Proof.KbData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two stores, of 48 and of 32 channels, together cover the 80-channel block: cut into 16-channel slabs they tile it. -/
theorem cover1_2 (p1 : Vec F S1x32x64x256 .f32) (p0 : Vec F S1x48x64x256 .f32) (y : S1x80x64x256.Idx) :
    ∃ pc ∈ ([⟨r1_hi, p1⟩, ⟨r1_lo, p0⟩] : List (View.Piece (Elt F) S1x80x64x256 .f32)), y ∈ pc.1.set :=
  View.cover_of_tiledBy [⟨r1_hi, p1⟩, ⟨r1_lo, p0⟩] ![1, 16, 64, 256] (by sl_kernel_rfl) y

set_option maxHeartbeats 1000000 in
/-- The body on whole staging memrefs: the inputs' at contents `x0`, `x1` and the output's at anything; it ends with the
    inputs as they were and the output at `out1_2 x0 x1`. -/
theorem sound_kernel1 (c : Dev nD) (E : Set ℕ) (i : grid1.Coords)
    (arg2 : Memref sig .tc .vmem S1x48x64x256 .f32) (harg2 : arg2.IsWhole) (arg3 : Memref sig .tc .vmem S1x32x64x256 .f32) (harg3 : arg3.IsWhole)
    (arg4 : Memref sig .tc .vmem S1x80x64x256 .f32) (harg4 : arg4.IsWhole)
    (x0 : Vec F S1x48x64x256 .f32) (x1 : Vec F S1x32x64x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__concat_kernel i arg2 harg2 arg3 harg3 arg4 harg4) K := by
  simp only [cc1__concat_kernel_eq_skeleton]; unfold cc1__concat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _ _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbRun.lean ====
/-
  The whole run of the program: the two host stretches and the two kernel regions as segments over the thread state
  "every unscoped buffer at the boundary's contents, the generator register at some state, nothing owed", and the launch.
  Every weakly fair execution terminates, nothing faults, and every unscoped buffer ends at the last boundary's contents:
  the arguments as launched, the result at what the concatenation region's pipeline leaves in its output array.
-/
import proofs.«176654_j36103495090600_1_alg».proof.Proof.KbBody0
import proofs.«176654_j36103495090600_1_alg».proof.Proof.KbBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

/-- `main_arg0` ends as launched: no host operation writes it and a region only reads it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

/-- `main_arg1` ends as launched: no host operation writes it and a region only reads it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-- `main_arg2` ends as launched: no host operation writes it and a region only reads it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

/-- `main_arg3` ends as launched: no host operation writes it and a region only reads it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-- `main_arg4` ends as launched: no host operation writes it and a region only reads it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

/-- The result buffer ends at what the concatenation region's pipeline leaves in its output array. -/
theorem W4_main_v33 (c : Dev nD) : W4 m ρ c (Proc.devRef .tc main_v33) = (dat1 (V3 m ρ) c).arrAt 2 cfg1.N := W4_arr m ρ c 2
/-- The projection's result buffer after its region is what that pipeline leaves in its output array. -/
theorem W2_main_v2 (c : Dev nD) : W2 m ρ c (Proc.devRef .tc main_v2) = (dat0 (V1 m ρ) c).arrAt 3 cfg0.N := W2_arr m ρ c 3

/-! ## The records' family and the thread state -/

abbrev adm : (p : Fin 2) → (pcfgs (F := F) p).Adm := fun p => (cfgs p).toPCfg_adm
/-- Each pipeline's record at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W1`, left with them at `W2`. Its arrays are
    split out of the unscoped buffers at entry and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are
    split out of the unscoped buffers at entry and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and in every
    final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The run with the result named: the result buffer ends at the last boundary's contents of it. -/
theorem run_result : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v33 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Hand

end
-- ==== Proof.KiData.lean ====
/-
  The two kernel regions of the program, as data: for each region, a window's block at a grid point read off the array
  the region finds, what the kernel body leaves in the output window's staging buffer as a function of the input blocks,
  and the pipeline's record of arrays, per-point buffer contents and invariant. Then the contents of every buffer at the
  five boundaries of the program: launch, after the two reshapes, after the projection region, after the scatter
  stretch, after the concatenation region.
-/
import proofs.«176654_j36103495090600_1_alg».proof.Proof.Gen.KernelIdeal.Launch
import proofs.«176654_j36103495090600_1_alg».proof.Proof.Gen.KernelIdeal.Skeleton
import proofs.«176654_j36103495090600_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The projection region (pipeline 0): rows of `x` by the whole of `W` and the bias row -/

/-- Window `w`'s block at point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x256 := Rect.unit (s := S1024x256) ![0, 0] S1024x256.size inb_S1024x256_S1024x256_0_0
abbrev r0_1 : Rect S256x32 := Rect.unit (s := S256x32) ![0, 0] S256x32.size inb_S256x32_S256x32_0_0
abbrev r0_2 : Rect S1x32 := Rect.unit (s := S1x32) ![0, 0] S1x32.size inb_S1x32_S1x32_0_0
abbrev r0_3 : Rect S1024x32 := Rect.unit (s := S1024x32) ![0, 0] S1024x32.size inb_S1024x32_S1024x32_0_0

/-- The output block after the body: one whole-block store of the product of the row block with `W`, plus the bias row. -/
def out0_3 (x0 : Vec F S1024x256 .f32) (x1 : Vec F S256x32 .f32) (x2 : Vec F S1x32 .f32) : Vec F S1024x32 .f32 :=
  View.canon [⟨r0_3, k0_pay1 (View.ld x0 r0_0) (View.ld x1 r0_1) (View.ld x2 r0_2)⟩]

/-- The record of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The concatenation region (pipeline 1): a channel block of each input into its channel range of the output -/

/-- Window `w`'s block at point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x48x64x256 := Rect.unit (s := S1x48x64x256) ![0, 0, 0, 0] S1x48x64x256.size inb_S1x48x64x256_S1x48x64x256_0_0_0_0
abbrev r1_1 : Rect S1x32x64x256 := Rect.unit (s := S1x32x64x256) ![0, 0, 0, 0] S1x32x64x256.size inb_S1x32x64x256_S1x32x64x256_0_0_0_0
abbrev r1_lo : Rect S1x80x64x256 := Rect.unit (s := S1x80x64x256) ![0, 0, 0, 0] S1x48x64x256.size inb_S1x80x64x256_S1x48x64x256_0_0_0_0
abbrev r1_hi : Rect S1x80x64x256 := Rect.unit (s := S1x80x64x256) ![0, 48, 0, 0] S1x32x64x256.size inb_S1x80x64x256_S1x32x64x256_0_48_0_0

/-- The output block after the body: channels 0–47 from the first input's block, channels 48–79 from the second's
    (the later store listed first). -/
def out1_2 (x0 : Vec F S1x48x64x256 .f32) (x1 : Vec F S1x32x64x256 .f32) : Vec F S1x80x64x256 .f32 :=
  View.canon [⟨r1_hi, k1_pay1 (View.ld x1 r1_1)⟩, ⟨r1_lo, View.ld x0 r1_0⟩]

/-- The record of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

end Regions

/-! ## The buffers' contents at the five boundaries -/

/-- At launch. -/
abbrev W0 : Dev nD → Valuation τ sig (Elt F) := fun c b => (s₀ m ρ).mem ((c : Dev nD), b)
/-- After the two reshapes (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the scatter stretch (the concatenation region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the concatenation region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

end Cert.KernelIdeal.Hand

end
-- ==== Proof.KiBody0.lean ====
/-
  The projection region's body at every grid point: the three input windows' staging buffers hold their blocks, the body
  loads them (and the output buffer, whose old contents it does not use), and leaves in the output buffer the product of
  the row block with `W` plus the bias row.
-/
import proofs.«176654_j36103495090600_1_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not: unfetched, the block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole block, so it covers it. -/
theorem cover0_3 (p0 : Vec F S1024x32 .f32) (y : S1024x32.Idx) :
    ∃ pc ∈ ([⟨r0_3, p0⟩] : List (View.Piece (Elt F) S1024x32 .f32)), y ∈ pc.1.set :=
  View.cover_of_tiled [⟨r0_3, p0⟩] S1024x32.size (by rfl) y

set_option maxHeartbeats 1000000 in
/-- The body on whole staging memrefs: the inputs' at contents `x0`, `x1`, `x2` and the output's at anything; it ends with
    the inputs as they were and the output at `out0_3 x0 x1 x2`. -/
theorem sound_kernel0 (c : Dev nD) (E : Set ℕ) (i : grid0.Coords)
    (arg1 : Memref sig .tc .vmem S1024x256 .f32) (harg1 : arg1.IsWhole) (arg2 : Memref sig .tc .vmem S256x32 .f32) (harg2 : arg2.IsWhole)
    (arg3 : Memref sig .tc .vmem S1x32 .f32) (harg3 : arg3.IsWhole) (arg4 : Memref sig .tc .vmem S1024x32 .f32) (harg4 : arg4.IsWhole)
    (x0 : Vec F S1024x256 .f32) (x1 : Vec F S256x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiBody1.lean ====
/-
  The concatenation region's body at every grid point: the two input windows' staging buffers hold their blocks, the body
  copies the first into channels 0–47 of the output buffer and the second into channels 48–79.
-/
import proofs.«176654_j36103495090600_1_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two stores, of 48 and of 32 channels, together cover the 80-channel block: cut into 16-channel slabs they tile it. -/
theorem cover1_2 (p1 : Vec F S1x32x64x256 .f32) (p0 : Vec F S1x48x64x256 .f32) (y : S1x80x64x256.Idx) :
    ∃ pc ∈ ([⟨r1_hi, p1⟩, ⟨r1_lo, p0⟩] : List (View.Piece (Elt F) S1x80x64x256 .f32)), y ∈ pc.1.set :=
  View.cover_of_tiledBy [⟨r1_hi, p1⟩, ⟨r1_lo, p0⟩] ![1, 16, 64, 256] (by sl_kernel_rfl) y

set_option maxHeartbeats 1000000 in
/-- The body on whole staging memrefs: the inputs' at contents `x0`, `x1` and the output's at anything; it ends with the
    inputs as they were and the output at `out1_2 x0 x1`. -/
theorem sound_kernel1 (c : Dev nD) (E : Set ℕ) (i : grid1.Coords)
    (arg2 : Memref sig .tc .vmem S1x48x64x256 .f32) (harg2 : arg2.IsWhole) (arg3 : Memref sig .tc .vmem S1x32x64x256 .f32) (harg3 : arg3.IsWhole)
    (arg4 : Memref sig .tc .vmem S1x80x64x256 .f32) (harg4 : arg4.IsWhole)
    (x0 : Vec F S1x48x64x256 .f32) (x1 : Vec F S1x32x64x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__concat_kernel i arg2 harg2 arg3 harg3 arg4 harg4) K := by
  simp only [cc1__concat_kernel_eq_skeleton]; unfold cc1__concat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _ _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
/-
  The whole run of the program: the two host stretches and the two kernel regions as segments over the thread state
  "every unscoped buffer at the boundary's contents, the generator register at some state, nothing owed", and the launch.
  Every weakly fair execution terminates, nothing faults, and every unscoped buffer ends at the last boundary's contents:
  the arguments as launched, the result at what the concatenation region's pipeline leaves in its output array.
-/
import proofs.«176654_j36103495090600_1_alg».proof.Proof.KiBody0
import proofs.«176654_j36103495090600_1_alg».proof.Proof.KiBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

/-- `main_arg0` ends as launched: no host operation writes it and a region only reads it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

/-- `main_arg1` ends as launched: no host operation writes it and a region only reads it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-- `main_arg2` ends as launched: no host operation writes it and a region only reads it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

/-- `main_arg3` ends as launched: no host operation writes it and a region only reads it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-- `main_arg4` ends as launched: no host operation writes it and a region only reads it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

/-- The result buffer ends at what the concatenation region's pipeline leaves in its output array. -/
theorem W4_main_v33 (c : Dev nD) : W4 m ρ c (Proc.devRef .tc main_v33) = (dat1 (V3 m ρ) c).arrAt 2 cfg1.N := W4_arr m ρ c 2
/-- The projection's result buffer after its region is what that pipeline leaves in its output array. -/
theorem W2_main_v2 (c : Dev nD) : W2 m ρ c (Proc.devRef .tc main_v2) = (dat0 (V1 m ρ) c).arrAt 3 cfg0.N := W2_arr m ρ c 3

/-! ## The records' family and the thread state -/

abbrev adm : (p : Fin 2) → (pcfgs (F := F) p).Adm := fun p => (cfgs p).toPCfg_adm
/-- Each pipeline's record at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W1`, left with them at `W2`. Its arrays are
    split out of the unscoped buffers at entry and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are
    split out of the unscoped buffers at entry and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and in every
    final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The run with the result named: the result buffer ends at the last boundary's contents of it. -/
theorem run_result : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v33 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand

end
-- ==== Proof.Spec.lean ====
/-
  What the program computes, as functions of its argument arrays.
  `projRows`: entry (r, c) of the flattened projection is the sum over k of x(r, k) · W(k, c), plus the bias b(c).
  `scatterMap`: the projected rows written into a zero grid [batch, h, w, channel] at the (wrapped) locations, then the
  channel axis moved second. The index triple of row (b, n) is (b, h(b, n), w(b, n)), a negative coordinate wrapped once
  by the axis's extent.
-/
import proofs.«176654_j36103495090600_1_alg».proof.Proof.Gen.KernelIdeal
import Idealize.ShloMosaic.PureOps.Ideal
import Idealize.ShloMosaic.Lib.ValueIdx

noncomputable section

open scoped BigOperators

namespace Cert.KernelIdeal.Spec

open Idealize.ShloMosaic Idealize.ShloMosaic.ValueIdx Cert.KernelIdeal Cert.KernelIdeal.Gen

/-- Entry (r, c) of `x · W + b` over the flattened rows. -/
def projRows (x : FVec Ideal S8192x256 .f32) (w : FVec Ideal S256x32 .f32) (b : FVec Ideal S1x32 .f32) : FVec Ideal S8192x32 .f32 :=
  fun j => (∑ k : Fin 256, x (ix2 (n0 := 8192) (n1 := 256) (j 0) k) * w (ix2 (n0 := 256) (n1 := 32) k (j 1)))
    + b (ix2 (n0 := 1) (n1 := 32) 0 (j 1))

variable {F : FTy → Type} [FloatOps F]

/-- The projected rows scattered into the zero grid at the wrapped locations, channels moved second. -/
def scatterMap (proj : (⟨S16x512x32, .f32⟩ : BufTy).Contents (Elt F)) (loc : (⟨S16x512x2, .i32⟩ : BufTy).Contents (Elt F)) :
    (⟨S16x32x256x256, .f32⟩ : BufTy).Contents (Elt F) :=
  (transpose S16x32x256x256 [0, 3, 1, 2] (Host.scatter scatter_S16x256x256x32_S16x512x3_S16x512x32_2_012_012_2 (fun _ b => b) (broadcastInDim S16x256x256x32 ![] bcast_S_S16x256x256x32 (constant S_ .f32 0x00000000#32)) (concatenate S16x512x3 2 [⟨S16x512x1, (broadcastInDim S16x512x1 ![0, 1] bcast_S16x512_S16x512x1_0_1 (broadcastInDim S16x512 ![0, 1] bcast_S16x1_S16x512_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x512x1, (broadcastInDim S16x512x1 ![0, 1] bcast_S16x512_S16x512x1_0_1 (select (cmpi .slt (shapeCast _ (extractStridedSlice S16x512x1 ![0, 0, 0] loc slices_S16x512x2_S16x512x1_0_0_0) shapeCasts_S16x512x1_S16x512) (broadcastInDim S16x512 ![] bcast_S_S16x512 (constantI S_ 32 0#32))) (addi (shapeCast _ (extractStridedSlice S16x512x1 ![0, 0, 0] loc slices_S16x512x2_S16x512x1_0_0_0) shapeCasts_S16x512x1_S16x512) (broadcastInDim S16x512 ![] bcast_S_S16x512 (constantI S_ 32 256#32))) (shapeCast _ (extractStridedSlice S16x512x1 ![0, 0, 0] loc slices_S16x512x2_S16x512x1_0_0_0) shapeCasts_S16x512x1_S16x512)))⟩, ⟨S16x512x1, (broadcastInDim S16x512x1 ![0, 1] bcast_S16x512_S16x512x1_0_1 (select (cmpi .slt (shapeCast _ (extractStridedSlice S16x512x1 ![0, 0, 1] loc slices_S16x512x2_S16x512x1_0_0_1) shapeCasts_S16x512x1_S16x512) (broadcastInDim S16x512 ![] bcast_S_S16x512 (constantI S_ 32 0#32))) (addi (shapeCast _ (extractStridedSlice S16x512x1 ![0, 0, 1] loc slices_S16x512x2_S16x512x1_0_0_1) shapeCasts_S16x512x1_S16x512) (broadcastInDim S16x512 ![] bcast_S_S16x512 (constantI S_ 32 256#32))) (shapeCast _ (extractStridedSlice S16x512x1 ![0, 0, 1] loc slices_S16x512x2_S16x512x1_0_0_1) shapeCasts_S16x512x1_S16x512)))⟩] concatenates_S16x512x1_S16x512x1_S16x512x1_S16x512x3_d2) proj) transposes_S16x256x256x32_S16x32x256x256_0_3_1_2)

end Cert.KernelIdeal.Spec

end
-- ==== Proof.LibNary3Apply.lean ====
import Idealize.ShloMosaic.Lib.StableHlo.Run

noncomputable section

/-! # A host operation of three operands, its result with the operands as plain arguments

An operation over a literal family of three references leaves, at its result buffer, its function of the three
operands' contents. Here that value is written `apply3 f X Y Z` with the three contents as ordinary arguments, each read at
its own reference, so that a one-pass reader of a line of operations rewrites the three reads before the function is
applied to them (a function that puts its operands in a place whose type a later argument depends on, such as the piece list
of a concatenation, otherwise hides them from the reader). -/

namespace Cert.Nary3

open Idealize.ShloMosaic Idealize.ShloMosaic.StableHlo

variable {τ : Topo} {sig : RefSig} {Val : EltTy → Type} {x a b y : Ref sig .tc}

/-- A function of a family of three contents, applied to the three contents one by one. -/
def apply3 (f : ((k : Fin 3) → ((![x, a, b] : Fin 3 → Ref sig .tc) k).ty.Contents Val) → y.ty.Contents Val)
    (X : x.ty.Contents Val) (Y : a.ty.Contents Val) (Z : b.ty.Contents Val) : y.ty.Contents Val :=
  f (Fin.cons X (Fin.cons Y (Fin.cons Z (fun i => i.elim0))))

/-- The result of an operation over three literal references, the operands as plain arguments. -/
theorem nary3_result_apply
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = apply3 f (F (Proc.devRef .tc x)) (F (Proc.devRef .tc a)) (F (Proc.devRef .tc b)) := by
  unfold apply3
  rw [nary_result]; congr 1; funext k; fin_cases k <;> rfl

/-- The same, with the result reference un-indexed, for a one-pass reader. -/
theorem nary3_result_apply'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 f (F (Proc.devRef .tc x)) (F (Proc.devRef .tc a)) (F (Proc.devRef .tc b)) :=
  nary3_result_apply f hxs hy F

end Cert.Nary3

end
-- ==== Proof.HostK.lean ====
/-
  What the two host stretches of the program leave in the buffers that the kernel regions and the result read.
  The first stretch is two reshapes: the input rows flattened to [8192, 256] and the bias made a [1, 32] row; the weight
  matrix is untouched. The second stretch reshapes the projected rows to [16, 512, 32], builds the index triples
  (batch, wrapped row, wrapped column) from the location array, scatters the rows into a zero grid and moves the channel
  axis second; the array of the first 48 channels is untouched.
-/
import proofs.«176654_j36103495090600_1_alg».proof.Proof.KiData
import proofs.«176654_j36103495090600_1_alg».proof.Proof.Spec
import proofs.«176654_j36103495090600_1_alg».proof.Proof.LibNary3Apply
import Idealize.ShloMosaic.Lib.StableHlo.Run

noncomputable section

namespace Cert.KernelIdeal.HostK

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the two reshapes -/

/-- The flattened input rows: the reshape of the [16, 512, 256] input. -/
theorem W1_v0 (c : Dev nD) : W1 m ρ c (Proc.devRef .tc main_v0)
    = shapeCast S8192x256 (m ((c.tc : Thread nD τ).loc main_arg1)) shapeCasts_S16x512x256_S8192x256 := by
  after_results_simp
  rfl

/-- The bias as a one-row matrix. -/
theorem W1_v1 (c : Dev nD) : W1 m ρ c (Proc.devRef .tc main_v1)
    = shapeCast S1x32 (m ((c.tc : Thread nD τ).loc main_arg3)) shapeCasts_S32_S1x32 := by
  after_results_simp
  rfl

/-- The weight matrix is no reshape's result. -/
theorem W1_arg2 (c : Dev nD) : W1 m ρ c (Proc.devRef .tc main_arg2) = m ((c.tc : Thread nD τ).loc main_arg2) := by
  after_results_simp

/-! ## After the scatter stretch -/

/-- The location array is written by neither reshape nor by the projection region. -/
theorem W2_arg4 (c : Dev nD) : W2 m ρ c (Proc.devRef .tc main_arg4) = m ((c.tc : Thread nD τ).loc main_arg4) := by
  rw [W2_of_ne m ρ c main_arg4 (by decide)]
  after_results_simp

/-- The array of the first 48 channels is written by neither reshape nor by the projection region. -/
theorem W2_arg0 (c : Dev nD) : W2 m ρ c (Proc.devRef .tc main_arg0) = m ((c.tc : Thread nD τ).loc main_arg0) := by
  rw [W2_of_ne m ρ c main_arg0 (by decide)]
  after_results_simp

/-- The scattered grid, channels second: the stretch's composed term of the projected rows and the location array. -/
theorem W3_v32 (c : Dev nD) : W3 m ρ c (Proc.devRef .tc main_v32)
    = Cert.KernelIdeal.Spec.scatterMap
        (shapeCast S16x512x32 (W2 m ρ c (Proc.devRef .tc main_v2)) shapeCasts_S8192x32_S16x512x32)
        (m ((c.tc : Thread nD τ).loc main_arg4)) := by
  simp (disch := decide) only [after_cons, after_nil,
    nullary_result', unary_result', binary_result', ternary_result', reshape_result', Cert.Nary3.nary3_result_apply',
    nullary_result_ne', unary_result_ne', binary_result_ne', ternary_result_ne', reshape_result_ne', nary_result_ne']
  rw [W2_arg4]
  rfl

/-- The array of the first 48 channels is no result of the stretch. -/
theorem W3_arg0 (c : Dev nD) : W3 m ρ c (Proc.devRef .tc main_arg0) = m ((c.tc : Thread nD τ).loc main_arg0) := by
  simp (disch := decide) only [after_cons, after_nil,
    nullary_result_ne', unary_result_ne', binary_result_ne', ternary_result_ne', reshape_result_ne', nary_result_ne']
  exact W2_arg0 m ρ c

end Cert.KernelIdeal.HostK

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Val0.lean ====
/-
  The projection region's output array after all eight grid points: entry (r, c) is the sum over k of x(r, k) · W(k, c),
  plus the bias b(c), of the contents the region finds in its three input arrays.

  Grid point t stores into rows [1024·t, 1024·t + 1024) of the [8192, 32] output one block: the product of the same rows
  of x with the whole of W (accumulated from zero; the narrowing of the operands is the identity on the extended reals),
  plus the bias row repeated over the 1024 rows. The eight row ranges tile the output, row r lying in the block of point
  r / 1024.
-/
import proofs.«176654_j36103495090600_1_alg».proof.Proof.KiData
import proofs.«176654_j36103495090600_1_alg».proof.Proof.Spec
import proofs.«176654_j36103495090600_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The zero offsets of a whole-block rectangle. -/
theorem hz : (![0, 0] : Fin 2 → Nat) = fun _ => 0 := funext fun a => by fin_cases a <;> rfl

/-! ## What one grid point leaves in its output block -/

/-- Entry (p, q) of the output block: row p of the row block times column q of W, plus the bias at q. -/
theorem out_apply (x0 : Vec Ideal S1024x256 .f32) (x1 : Vec Ideal S256x32 .f32) (x2 : Vec Ideal S1x32 .f32)
    (p : Fin 1024) (q : Fin 32) :
    out0_3 x0 x1 x2 (ix2 p q) = (∑ k : Fin 256, x0 (ix2 p k) * x1 (ix2 k q)) + x2 (ix2 0 q) := by
  unfold out0_3
  rw [View.canon_unit_zero hz]
  simp only [View.ld_unit_zero (S := S1024x256) hz, View.ld_unit_zero (S := S256x32) hz, View.ld_unit_zero (S := S1x32) hz]
  unfold k0_pay1
  rw [addf_apply]
  refine congrArg₂ (· + ·) ((Cert.PlainDot.matmul_zero_apply dot_S1024x256_S256x32_S1024x32_1_0_0_1_n_n rfl none _ _ (ix2 p q)).trans ?_)
    ((broadcastTo_1b_ab_apply _ _ p q).trans ?_)
  · simp only [shapeCast_self, truncf_apply]
  · simp only [shapeCast_self]

/-- The same at any index of the block. -/
theorem out_apply' (x0 : Vec Ideal S1024x256 .f32) (x1 : Vec Ideal S256x32 .f32) (x2 : Vec Ideal S1x32 .f32)
    (y : S1024x32.Idx) :
    out0_3 x0 x1 x2 y = (∑ k : Fin 256, x0 (ix2 (y 0) k) * x1 (ix2 k (y 1))) + x2 (ix2 0 (y 1)) :=
  (congrArg (out0_3 x0 x1 x2) (eq_ix2 y)).trans (out_apply x0 x1 x2 (y 0) (y 1))

/-! ## Where the blocks sit -/

/-- The block indices at point t: the row blocks of x and of the output are block t on the rows and block 0 on the
    columns; W and the bias row are one block each. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- Entry (p, k) of x's block at point t is entry (1024·t + p, k) of x. -/
theorem blk0_apply (c : Dev nD) (t : Fin cfg0.N) (p : Fin 1024) (k : Fin 256) (i : S8192x256.Idx)
    (h0 : (i 0).val = 1024 * t.val + p.val) (h1 : (i 1).val = k.val) :
    (iblk0 V c 0 t : Vec Ideal S1024x256 .f32) (ix2 p k) = (V c main_v0 : S8192x256.Idx → Elt Ideal .f32) i := by
  obtain ⟨e00, e01, -⟩ := idx_facts t
  unfold iblk0
  rw [View.read_apply]
  show V c main_v0 _ = V c main_v0 _
  congr 1
  funext a
  apply Fin.ext
  match a with
  | ⟨0, _⟩ => show win0_0.index t 0 * 1024 + 1 * p.val = (i 0).val; rw [e00, h0]; omega
  | ⟨1, _⟩ => show win0_0.index t 1 * 256 + 1 * k.val = (i 1).val; rw [e01, h1]; omega

/-- W's block at every point is W. -/
theorem blk1_apply (c : Dev nD) (t : Fin cfg0.N) (k : Fin 256) (q : Fin 32) :
    (iblk0 V c 1 t : Vec Ideal S256x32 .f32) (ix2 k q) = (V c main_arg2 : S256x32.Idx → Elt Ideal .f32) (ix2 k q) := by
  obtain ⟨-, -, e10, e11, -⟩ := idx_facts t
  unfold iblk0
  rw [View.read_apply]
  show V c main_arg2 _ = V c main_arg2 _
  congr 1
  funext a
  apply Fin.ext
  match a with
  | ⟨0, _⟩ => show win0_1.index t 0 * 256 + 1 * k.val = k.val; rw [e10]; omega
  | ⟨1, _⟩ => show win0_1.index t 1 * 32 + 1 * q.val = q.val; rw [e11]; omega

/-- The bias row's block at every point is the bias row. -/
theorem blk2_apply (c : Dev nD) (t : Fin cfg0.N) (q : Fin 32) :
    (iblk0 V c 2 t : Vec Ideal S1x32 .f32) (ix2 0 q) = (V c main_v1 : S1x32.Idx → Elt Ideal .f32) (ix2 0 q) := by
  obtain ⟨-, -, -, -, e20, e21, -⟩ := idx_facts t
  unfold iblk0
  rw [View.read_apply]
  show V c main_v1 _ = V c main_v1 _
  congr 1
  funext a
  apply Fin.ext
  match a with
  | ⟨0, _⟩ => show win0_2.index t 0 * 1 + 1 * 0 = 0; rw [e20]
  | ⟨1, _⟩ => show win0_2.index t 1 * 32 + 1 * q.val = q.val; rw [e21]; omega

/-! ## What point t writes back -/

/-- Point t writes back block t of x · W + b: at the block's entry (p, q), which is the array's (1024·t + p, q), the
    block's sum reads x at row 1024·t + p and W and b where the array's sum does. -/
theorem flushed_eq (c : Dev nD) (t : Fin cfg0.N) :
    (dat0 (F := Ideal) V c).flushed 3 t
      = ((cfg0.win 3).blk t).view.read (Elt Ideal) (Cert.KernelIdeal.Spec.projRows (V c main_v0) (V c main_arg2) (V c main_v1)) := by
  show (cfg0.win 3).cut (grid0.coords t) ((dat0 V c).after 3 t) = _
  rw [after0_3]
  obtain ⟨-, -, -, -, -, -, e30, e31⟩ := idx_facts t
  funext j
  rw [View.read_apply]
  refine (out_apply' _ _ _ ((cfg0.win 3).xinj (grid0.coords t) j)).trans ?_
  unfold Cert.KernelIdeal.Spec.projRows
  have hp : (j 0).val < 1024 := (j 0).isLt
  have hq : (j 1).val < 32 := (j 1).isLt
  have i0 : ((((cfg0.win 3).blk t).view.emb j) 0).val = 1024 * t.val + (j 0).val := by
    show win0_3.index t 0 * 1024 + 1 * (j 0).val = _; rw [e30]; omega
  have i1 : ((((cfg0.win 3).blk t).view.emb j) 1).val = (j 1).val := by
    show win0_3.index t 1 * 32 + 1 * (j 1).val = _; rw [e31]; omega
  refine congrArg₂ (· + ·) (Finset.sum_congr rfl fun k _ => congrArg₂ (· * ·) ?_ ?_) ?_
  · exact blk0_apply V c t _ k _ i0 rfl
  · refine (blk1_apply V c t k _).trans ?_
    congr 1
    funext a
    apply Fin.ext
    match a with
    | ⟨0, _⟩ => rfl
    | ⟨1, _⟩ => exact i1.symm
  · refine (blk2_apply V c t _).trans ?_
    congr 1
    funext a
    apply Fin.ext
    match a with
    | ⟨0, _⟩ => rfl
    | ⟨1, _⟩ => exact i1.symm

/-! ## The eight blocks tile the output -/

/-- An index of the output is in point t's block iff each coordinate is in the block's range on its axis. -/
theorem mem_blk (t : Fin cfg0.N) (i : S8192x32.Idx) :
    i ∈ ((cfg0.win 3).blk t).view.set ↔ ∀ a : Fin 2, win0_3.index t a * S1024x32.size a ≤ (i a).val ∧ (i a).val < win0_3.index t a * S1024x32.size a + S1024x32.size a := by
  show i ∈ ((View.whole main_v2).slice (win0_3.rect t)).set ↔ _
  rw [View.set_slice_whole, Rect.mem_set_unit]
  exact Iff.rfl

/-- Row r of the output is in the block of point r / 1024, which is written back. -/
theorem covered (i : S8192x32.Idx) :
    ∃ t : Fin cfg0.N, (cfg0.win 3).flush t = true ∧ i ∈ ((cfg0.win 3).blk t).view.set := by
  have h0 : (i 0).val < 8192 := (i 0).isLt
  have h1 : (i 1).val < 32 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, e30, e31⟩ := idx_facts t
  refine ⟨t, flush0_3 t, ?_⟩
  rw [mem_blk]
  intro a
  match a with
  | ⟨0, _⟩ => show win0_3.index t 0 * 1024 ≤ (i 0).val ∧ (i 0).val < win0_3.index t 0 * 1024 + 1024; rw [e30, ht]; omega
  | ⟨1, _⟩ => show win0_3.index t 1 * 32 ≤ (i 1).val ∧ (i 1).val < win0_3.index t 1 * 32 + 32; rw [e31]; omega

/-- THE OUTPUT ARRAY after the eight points: x · W + b of the region's entry contents. -/
theorem arr0_eq (c : Dev nD) :
    (dat0 (F := Ideal) V c).arrAt 3 cfg0.N = Cert.KernelIdeal.Spec.projRows (V c main_v0) (V c main_arg2) (V c main_v1) :=
  (dat0 (F := Ideal) V c).arrAt_eq_of_cover 3 _ (fun t _ => flushed_eq V c t) covered

end

end Cert.KernelIdeal.Val0

end
-- ==== Proof.Val1.lean ====
/-
  The concatenation region's output array after all 64 grid points, for every float instance: the concatenation along
  the channel axis of the two arrays the region finds (no arithmetic is involved). Grid point `(b, h)` writes the block
  `[b, 0:80, 64h:64h+64, 0:256]` of the output; in that block channels 0–47 are the first input's block and channels 48–79
  the second's; the blocks of the 64 points tile the array.
-/
import proofs.«176654_j36103495090600_1_alg».proof.Proof.KiData
import Idealize.ShloMosaic.Lib.Pipeline.Value
import Idealize.ShloMosaic.Lib.ValueIdx

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]

/-! ## The block the body leaves, read at an index

The body stores the first input's block over channels 0–47 of the output block and then the second input's block (through
a shape cast to its own shape) over channels 48–79; the two loads are of the whole input blocks. So the output block is
the two input blocks side by side along the channel axis. -/

theorem zeros4 : (![0, 0, 0, 0] : Fin 4 → Nat) = fun _ => 0 := funext fun a => by fin_cases a <;> rfl

/-- The output block as two stores of the input blocks themselves, the later store (channels 48–79) first. -/
theorem out_pieces (x0 : Vec F S1x48x64x256 .f32) (x1 : Vec F S1x32x64x256 .f32) :
    out1_2 x0 x1 = View.canon [⟨r1_hi, x1⟩, ⟨r1_lo, x0⟩] := by
  unfold out1_2 k1_pay1
  simp only [View.ld_unit_zero (S := S1x48x64x256) zeros4, View.ld_unit_zero (S := S1x32x64x256) zeros4, shapeCast_self]

/-- Below channel 48 the output block reads the first input's block at the same coordinates. -/
theorem out_lo (x0 : Vec F S1x48x64x256 .f32) (x1 : Vec F S1x32x64x256 .f32) (y : S1x80x64x256.Idx) (i : S1x48x64x256.Idx)
    (h0 : (i 0).val = (y 0).val) (h1 : (i 1).val = (y 1).val) (h2 : (i 2).val = (y 2).val) (h3 : (i 3).val = (y 3).val) :
    out1_2 x0 x1 y = x0 i := by
  have hi1 : (i 1).val < 48 := (i 1).isLt
  rw [out_pieces, View.canon_cons_of_not_mem]
  · have e : y = r1_lo.emb i := by
      funext a; apply Fin.ext
      match a with
      | ⟨0, _⟩ => show (y 0).val = 0 + 1 * (i 0).val; omega
      | ⟨1, _⟩ => show (y 1).val = 0 + 1 * (i 1).val; omega
      | ⟨2, _⟩ => show (y 2).val = 0 + 1 * (i 2).val; omega
      | ⟨3, _⟩ => show (y 3).val = 0 + 1 * (i 3).val; omega
    rw [e]
    exact View.canon_cons_emb r1_lo x0 [] i
  · show y ∉ r1_hi.set
    rw [Rect.mem_set_unit]
    intro h
    have h48 : (48 : Nat) ≤ (y 1).val := (h 1).1
    omega

/-- From channel 48 on it reads the second input's block, 48 channels down. -/
theorem out_hi (x0 : Vec F S1x48x64x256 .f32) (x1 : Vec F S1x32x64x256 .f32) (y : S1x80x64x256.Idx) (i : S1x32x64x256.Idx)
    (h0 : (i 0).val = (y 0).val) (h1 : (i 1).val + 48 = (y 1).val) (h2 : (i 2).val = (y 2).val) (h3 : (i 3).val = (y 3).val) :
    out1_2 x0 x1 y = x1 i := by
  rw [out_pieces]
  have e : y = r1_hi.emb i := by
    funext a; apply Fin.ext
    match a with
    | ⟨0, _⟩ => show (y 0).val = 0 + 1 * (i 0).val; omega
    | ⟨1, _⟩ => show (y 1).val = 48 + 1 * (i 1).val; omega
    | ⟨2, _⟩ => show (y 2).val = 0 + 1 * (i 2).val; omega
    | ⟨3, _⟩ => show (y 3).val = 0 + 1 * (i 3).val; omega
  rw [e]
  exact View.canon_cons_emb r1_hi x1 _ i

/-! ## The three windows' blocks at a grid point

Grid point `(b, h)` of the `16 × 4` grid moves, in all three arrays, the block at batch `b`, all channels, rows
`64 h … 64 h + 63`, all columns: the three index maps are the same map `(b, h) ↦ (b, 0, h, 0)`. -/

/-- The printed index maps, decided over the grid: the inputs' blocks move with the output's, the channel and column
    block indices are zero, the batch and row block indices stay in range. -/
theorem idx_facts : ∀ t : Fin cfg1.N,
    win1_0.index t (0 : Fin 4) = win1_2.index t (0 : Fin 4) ∧ win1_0.index t (1 : Fin 4) = 0
    ∧ win1_0.index t (2 : Fin 4) = win1_2.index t (2 : Fin 4) ∧ win1_0.index t (3 : Fin 4) = 0
    ∧ win1_1.index t (0 : Fin 4) = win1_2.index t (0 : Fin 4) ∧ win1_1.index t (1 : Fin 4) = 0
    ∧ win1_1.index t (2 : Fin 4) = win1_2.index t (2 : Fin 4) ∧ win1_1.index t (3 : Fin 4) = 0
    ∧ win1_2.index t (1 : Fin 4) = 0 ∧ win1_2.index t (3 : Fin 4) = 0
    ∧ win1_2.index t (0 : Fin 4) ≤ 15 ∧ win1_2.index t (2 : Fin 4) ≤ 3 :=
  (by decide +kernel : ∀ t : Fin grid1.N, _)

/-- Every (batch, row-block) pair is some point's block. -/
theorem idx_onto : ∀ (b : Fin 16) (h : Fin 4), ∃ t : Fin cfg1.N, win1_2.index t = ![b.val, 0, h.val, 0] :=
  (by decide +kernel : ∀ (b : Fin 16) (h : Fin 4), ∃ t : Fin grid1.N, win1_2.index t = ![b.val, 0, h.val, 0])

/-! ## What a point writes back -/

section
variable (V : (c : Dev nD) → (b : Ref sig .tc) → Buf (Elt F) ((c : Thread nD τ).loc b)) (c : Dev nD)
variable (hc : Shape.Concatenates [S16x48x256x256, S16x32x256x256] S16x80x256x256 1)

/-- The region's result: the two arrays it finds, side by side along the channel axis. -/
abbrev G : S16x80x256x256.Idx → Elt F .f32 :=
  concatenate S16x80x256x256 1 [⟨S16x48x256x256, V c main_arg0⟩, ⟨S16x32x256x256, V c main_v32⟩] hc

/-- The concatenation at an index below channel 48 reads the first array at the same coordinates. -/
theorem G_lo (a0 : S16x48x256x256.Idx → Elt F .f32) (a1 : S16x32x256x256.Idx → Elt F .f32)
    (hc : Shape.Concatenates [S16x48x256x256, S16x32x256x256] S16x80x256x256 1) (y : S16x80x256x256.Idx) (k : S16x48x256x256.Idx)
    (h0 : (k 0).val = (y 0).val) (h1 : (k 1).val = (y 1).val) (h2 : (k 2).val = (y 2).val) (h3 : (k 3).val = (y 3).val) :
    concatenate S16x80x256x256 1 [⟨S16x48x256x256, a0⟩, ⟨S16x32x256x256, a1⟩] hc y = a0 k :=
  concatenate_pair_apply_left (t := S16x80x256x256) (s₁ := S16x48x256x256) (s₂ := S16x32x256x256) (1 : Fin 4) a0 a1 hc y rfl k fun b => by
    match b with
    | ⟨0, _⟩ => exact h0
    | ⟨1, _⟩ => exact h1
    | ⟨2, _⟩ => exact h2
    | ⟨3, _⟩ => exact h3

/-- From channel 48 on it reads the second array, 48 channels down. -/
theorem G_hi (a0 : S16x48x256x256.Idx → Elt F .f32) (a1 : S16x32x256x256.Idx → Elt F .f32)
    (hc : Shape.Concatenates [S16x48x256x256, S16x32x256x256] S16x80x256x256 1) (y : S16x80x256x256.Idx) (k : S16x32x256x256.Idx)
    (h0 : (k 0).val = (y 0).val) (h1 : (k 1).val + 48 = (y 1).val) (h2 : (k 2).val = (y 2).val) (h3 : (k 3).val = (y 3).val) :
    concatenate S16x80x256x256 1 [⟨S16x48x256x256, a0⟩, ⟨S16x32x256x256, a1⟩] hc y = a1 k :=
  concatenate_pair_apply_right (t := S16x80x256x256) (s₁ := S16x48x256x256) (s₂ := S16x32x256x256) (1 : Fin 4) a0 a1 hc y rfl rfl k (fun b hb => by
    match b with
    | ⟨0, _⟩ => exact h0
    | ⟨1, _⟩ => exact absurd rfl hb
    | ⟨2, _⟩ => exact h2
    | ⟨3, _⟩ => exact h3) h1

/-- What point `t` writes back is its block of the concatenation of the two arrays as the region finds them. -/
theorem flushed_eq (t : Fin cfg1.N) :
    (dat1 (F := F) V c).flushed 2 t = ((cfg1.win 2).blk t).view.read (Elt F) (G V c hc) := by
  show (cfg1.win 2).cut (grid1.coords t) ((dat1 V c).after 2 t) = _
  rw [after1_2]
  obtain ⟨e00, e01, e02, e03, e10, e11, e12, e13, e21, e23, b0, b2⟩ := idx_facts t
  funext j
  have hj0 : (j 0).val < 1 := (j 0).isLt
  have hj1 : (j 1).val < 80 := (j 1).isLt
  have hj2 : (j 2).val < 64 := (j 2).isLt
  have hj3 : (j 3).val < 256 := (j 3).isLt
  show out1_2 (iblk1 V c 0 t) (iblk1 V c 1 t) ((cfg1.win 2).xinj (grid1.coords t) j)
    = G V c hc (((cfg1.win 2).blk t).view.emb j)
  by_cases h48 : (j 1).val < 48
  · -- a channel of the first input
    refine (out_lo _ _ _ (ix4 (⟨(j 0).val, hj0⟩ : Fin 1) (⟨(j 1).val, h48⟩ : Fin 48) (⟨(j 2).val, hj2⟩ : Fin 64) (⟨(j 3).val, hj3⟩ : Fin 256))
      rfl rfl rfl rfl).trans ?_
    refine Eq.trans ?_ (G_lo (V c main_arg0) (V c main_v32) hc _
      (((cfg1.win 0).blk t).view.emb (ix4 (⟨(j 0).val, hj0⟩ : Fin 1) (⟨(j 1).val, h48⟩ : Fin 48) (⟨(j 2).val, hj2⟩ : Fin 64) (⟨(j 3).val, hj3⟩ : Fin 256)))
      ?_ ?_ ?_ ?_).symm
    · rfl
    · show win1_0.index t (0 : Fin 4) * 1 + 1 * (j 0).val = win1_2.index t (0 : Fin 4) * 1 + 1 * (j 0).val; omega
    · show win1_0.index t (1 : Fin 4) * 48 + 1 * (j 1).val = win1_2.index t (1 : Fin 4) * 80 + 1 * (j 1).val; omega
    · show win1_0.index t (2 : Fin 4) * 64 + 1 * (j 2).val = win1_2.index t (2 : Fin 4) * 64 + 1 * (j 2).val; omega
    · show win1_0.index t (3 : Fin 4) * 256 + 1 * (j 3).val = win1_2.index t (3 : Fin 4) * 256 + 1 * (j 3).val; omega
  · -- a channel of the second input
    have h32 : (j 1).val - 48 < 32 := by omega
    refine (out_hi _ _ _ (ix4 (⟨(j 0).val, hj0⟩ : Fin 1) (⟨(j 1).val - 48, h32⟩ : Fin 32) (⟨(j 2).val, hj2⟩ : Fin 64) (⟨(j 3).val, hj3⟩ : Fin 256))
      rfl (show (j 1).val - 48 + 48 = (j 1).val by omega) rfl rfl).trans ?_
    refine Eq.trans ?_ (G_hi (V c main_arg0) (V c main_v32) hc _
      (((cfg1.win 1).blk t).view.emb (ix4 (⟨(j 0).val, hj0⟩ : Fin 1) (⟨(j 1).val - 48, h32⟩ : Fin 32) (⟨(j 2).val, hj2⟩ : Fin 64) (⟨(j 3).val, hj3⟩ : Fin 256)))
      ?_ ?_ ?_ ?_).symm
    · rfl
    · show win1_1.index t (0 : Fin 4) * 1 + 1 * (j 0).val = win1_2.index t (0 : Fin 4) * 1 + 1 * (j 0).val; omega
    · show win1_1.index t (1 : Fin 4) * 32 + 1 * ((j 1).val - 48) + 48 = win1_2.index t (1 : Fin 4) * 80 + 1 * (j 1).val; omega
    · show win1_1.index t (2 : Fin 4) * 64 + 1 * (j 2).val = win1_2.index t (2 : Fin 4) * 64 + 1 * (j 2).val; omega
    · show win1_1.index t (3 : Fin 4) * 256 + 1 * (j 3).val = win1_2.index t (3 : Fin 4) * 256 + 1 * (j 3).val; omega

/-! ## The cover, and the array after the region -/

/-- An index of the array is in point `t`'s block iff each coordinate is in the block's range on its axis. -/
theorem mem_blk (t : Fin cfg1.N) (i : S16x80x256x256.Idx) :
    i ∈ ((cfg1.win 2).blk t).view.set ↔ ∀ a : Fin 4, win1_2.index t a * S1x80x64x256.size a ≤ (i a).val
      ∧ (i a).val < win1_2.index t a * S1x80x64x256.size a + S1x80x64x256.size a := by
  show i ∈ ((View.whole main_v33).slice (win1_2.rect t)).set ↔ _
  rw [View.set_slice_whole, Rect.mem_set_unit]
  exact Iff.rfl

/-- Every index of the output array is in some point's block: index `(b, ch, y, q)` in the block of batch `b` and
    row block `y / 64`. -/
theorem covered (i : S16x80x256x256.Idx) :
    ∃ t : Fin cfg1.N, (cfg1.win 2).flush t = true ∧ i ∈ ((cfg1.win 2).blk t).view.set := by
  have hi0 : (i 0).val < 16 := (i 0).isLt
  have hi1 : (i 1).val < 80 := (i 1).isLt
  have hi2 : (i 2).val < 256 := (i 2).isLt
  have hi3 : (i 3).val < 256 := (i 3).isLt
  obtain ⟨t, ht⟩ := idx_onto ⟨(i 0).val, hi0⟩ ⟨(i 2).val / 64, by omega⟩
  have q0 : win1_2.index t (0 : Fin 4) = (i 0).val := congrFun ht 0
  have q1 : win1_2.index t (1 : Fin 4) = 0 := congrFun ht 1
  have q2 : win1_2.index t (2 : Fin 4) = (i 2).val / 64 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 80 ≤ (i 1).val ∧ (i 1).val < win1_2.index t (1 : Fin 4) * 80 + 80; omega
  | ⟨2, _⟩ => show win1_2.index t (2 : Fin 4) * 64 ≤ (i 2).val ∧ (i 2).val < win1_2.index t (2 : Fin 4) * 64 + 64; omega
  | ⟨3, _⟩ => show win1_2.index t (3 : Fin 4) * 256 ≤ (i 3).val ∧ (i 3).val < win1_2.index t (3 : Fin 4) * 256 + 256; omega

/-- THE OUTPUT ARRAY after all 64 points: the concatenation along the channel axis of the two arrays the region finds. -/
theorem arr1_eq :
    (dat1 (F := F) V c).arrAt 2 cfg1.N
      = concatenate S16x80x256x256 1 [⟨S16x48x256x256, V c main_arg0⟩, ⟨S16x32x256x256, V c main_v32⟩] hc :=
  (dat1 V c).arrAt_eq_of_cover 2 (G V c hc) (fun t _ => flushed_eq V c hc t) covered

end

end Cert.KernelIdeal.Val1

end
-- ==== Proof.RefSpec.lean ====
/-
  The reference's scatter stretch as one function of the projected rows and the locations: the rows written into a zero
  grid [batch, h, w, channel] at the wrapped locations, then the channel axis moved second.
-/
import proofs.«176654_j36103495090600_1_alg».proof.Proof.Gen.ReferenceIdeal
import Idealize.ShloMosaic.PureOps.Ideal

noncomputable section

namespace Cert.ReferenceIdeal.Spec

open Idealize.ShloMosaic Cert.ReferenceIdeal Cert.ReferenceIdeal.Gen

variable {F : FTy → Type} [FloatOps F]

/-- The projected rows scattered into the zero grid at the wrapped locations, channels moved second. -/
def scatterMap (proj : (⟨S16x512x32, .f32⟩ : BufTy).Contents (Elt F)) (loc : (⟨S16x512x2, .i32⟩ : BufTy).Contents (Elt F)) :
    (⟨S16x32x256x256, .f32⟩ : BufTy).Contents (Elt F) :=
  (transpose S16x32x256x256 [0, 3, 1, 2] (Host.scatter scatter_S16x256x256x32_S16x512x3_S16x512x32_2_012_012_2 (fun _ b => b) (broadcastInDim S16x256x256x32 ![] bcast_S_S16x256x256x32 (constant S_ .f32 0x00000000#32)) (concatenate S16x512x3 2 [⟨S16x512x1, (broadcastInDim S16x512x1 ![0, 1] bcast_S16x512_S16x512x1_0_1 (broadcastInDim S16x512 ![0, 1] bcast_S16x1_S16x512_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x512x1, (broadcastInDim S16x512x1 ![0, 1] bcast_S16x512_S16x512x1_0_1 (select (cmpi .slt (shapeCast _ (extractStridedSlice S16x512x1 ![0, 0, 0] loc slices_S16x512x2_S16x512x1_0_0_0) shapeCasts_S16x512x1_S16x512) (broadcastInDim S16x512 ![] bcast_S_S16x512 (constantI S_ 32 0#32))) (addi (shapeCast _ (extractStridedSlice S16x512x1 ![0, 0, 0] loc slices_S16x512x2_S16x512x1_0_0_0) shapeCasts_S16x512x1_S16x512) (broadcastInDim S16x512 ![] bcast_S_S16x512 (constantI S_ 32 256#32))) (shapeCast _ (extractStridedSlice S16x512x1 ![0, 0, 0] loc slices_S16x512x2_S16x512x1_0_0_0) shapeCasts_S16x512x1_S16x512)))⟩, ⟨S16x512x1, (broadcastInDim S16x512x1 ![0, 1] bcast_S16x512_S16x512x1_0_1 (select (cmpi .slt (shapeCast _ (extractStridedSlice S16x512x1 ![0, 0, 1] loc slices_S16x512x2_S16x512x1_0_0_1) shapeCasts_S16x512x1_S16x512) (broadcastInDim S16x512 ![] bcast_S_S16x512 (constantI S_ 32 0#32))) (addi (shapeCast _ (extractStridedSlice S16x512x1 ![0, 0, 1] loc slices_S16x512x2_S16x512x1_0_0_1) shapeCasts_S16x512x1_S16x512) (broadcastInDim S16x512 ![] bcast_S_S16x512 (constantI S_ 32 256#32))) (shapeCast _ (extractStridedSlice S16x512x1 ![0, 0, 1] loc slices_S16x512x2_S16x512x1_0_0_1) shapeCasts_S16x512x1_S16x512)))⟩] concatenates_S16x512x1_S16x512x1_S16x512x1_S16x512x3_d2) proj) transposes_S16x256x256x32_S16x32x256x256_0_3_1_2)

end Cert.ReferenceIdeal.Spec

end
-- ==== Proof.ProjBridge.lean ====
/-
  The kernel's projection and the reference's are the same array.

  The kernel flattens the rows of x from [16, 512, 256] to [8192, 256], forms x · W + b with the bias as a row [1, 32],
  and folds the result [8192, 32] back to [16, 512, 32]. The reference contracts axis 2 of x with axis 0 of W and adds
  the bias broadcast [32] → [1, 1, 32] → [16, 512, 32]. At the index (bb, n, ch) both are
  (∑ k, x(bb, n, k) · W(k, ch)) + b(ch): the flat row of (bb, n) is bb · 512 + n, whose quotient and remainder by 512
  are bb and n. Only re-indexing is used; no finiteness.
-/
import proofs.«176654_j36103495090600_1_alg».proof.Proof.Spec
import proofs.«176654_j36103495090600_1_alg».proof.Proof.Gen.ReferenceIdeal
import Idealize.ShloMosaic.Lib.Pipeline.Value
import Idealize.ShloMosaic.Lib.ValueIdx
import Idealize.ShloMosaic.PureOps.Ideal.Laws

noncomputable section

open scoped BigOperators

namespace Cert.KernelIdeal.ProjBridge

open Idealize.ShloMosaic Idealize.ShloMosaic.ValueIdx Idealize.SL.Sem Cert.KernelIdeal Cert.KernelIdeal.Gen

/-! ## The reference's contraction at an index

The record contracts axis 2 of the left operand with axis 0 of the right; axes 0 and 1 of the left and axis 1 of the
right are free and appear, in that order, as the result's axes 0, 1, 2. -/

/-- Left operand, axis 0: the result's axis 0. -/
theorem lhs_axis0 (i : Cert.ReferenceIdeal.S16x512x32.Idx)
    (q : Cert.ReferenceIdeal.dot_S16x512x256_S256x32_S16x512x32_2_0_01_1_n_n.contr.Idx) :
    (Cert.ReferenceIdeal.dot_S16x512x256_S256x32_S16x512x32_2_0_01_1_n_n.lhsIdx i q 0).val = (i 0).val := by
  unfold DotDims.lhsIdx
  rw [dif_neg (show ¬(0 : Fin Cert.ReferenceIdeal.S16x512x256.rank) ∈ Cert.ReferenceIdeal.dot_S16x512x256_S256x32_S16x512x32_2_0_01_1_n_n.lhsBatch by decide),
    dif_pos (show (0 : Fin Cert.ReferenceIdeal.S16x512x256.rank) ∈ Cert.ReferenceIdeal.dot_S16x512x256_S256x32_S16x512x32_2_0_01_1_n_n.lhsNonContracting by decide)]
  rfl

/-- Left operand, axis 1: the result's axis 1. -/
theorem lhs_axis1 (i : Cert.ReferenceIdeal.S16x512x32.Idx)
    (q : Cert.ReferenceIdeal.dot_S16x512x256_S256x32_S16x512x32_2_0_01_1_n_n.contr.Idx) :
    (Cert.ReferenceIdeal.dot_S16x512x256_S256x32_S16x512x32_2_0_01_1_n_n.lhsIdx i q 1).val = (i 1).val := by
  unfold DotDims.lhsIdx
  rw [dif_neg (show ¬(1 : Fin Cert.ReferenceIdeal.S16x512x256.rank) ∈ Cert.ReferenceIdeal.dot_S16x512x256_S256x32_S16x512x32_2_0_01_1_n_n.lhsBatch by decide),
    dif_pos (show (1 : Fin Cert.ReferenceIdeal.S16x512x256.rank) ∈ Cert.ReferenceIdeal.dot_S16x512x256_S256x32_S16x512x32_2_0_01_1_n_n.lhsNonContracting by decide)]
  rfl

/-- Left operand, axis 2: the contraction's coordinate. -/
theorem lhs_axis2 (i : Cert.ReferenceIdeal.S16x512x32.Idx)
    (q : Cert.ReferenceIdeal.dot_S16x512x256_S256x32_S16x512x32_2_0_01_1_n_n.contr.Idx) :
    (Cert.ReferenceIdeal.dot_S16x512x256_S256x32_S16x512x32_2_0_01_1_n_n.lhsIdx i q 2).val = (q ⟨0, by decide⟩).val :=
  Cert.ReferenceIdeal.dot_S16x512x256_S256x32_S16x512x32_2_0_01_1_n_n.lhsIdx_val_of_single rfl i q

/-- Right operand, axis 0: the contraction's coordinate. -/
theorem rhs_axis0 (i : Cert.ReferenceIdeal.S16x512x32.Idx)
    (q : Cert.ReferenceIdeal.dot_S16x512x256_S256x32_S16x512x32_2_0_01_1_n_n.contr.Idx) :
    (Cert.ReferenceIdeal.dot_S16x512x256_S256x32_S16x512x32_2_0_01_1_n_n.rhsIdx i q 0).val = (q ⟨0, by decide⟩).val :=
  Cert.ReferenceIdeal.dot_S16x512x256_S256x32_S16x512x32_2_0_01_1_n_n.rhsIdx_val_of_single rfl i q

/-- Right operand, axis 1: the result's axis 2. -/
theorem rhs_axis1 (i : Cert.ReferenceIdeal.S16x512x32.Idx)
    (q : Cert.ReferenceIdeal.dot_S16x512x256_S256x32_S16x512x32_2_0_01_1_n_n.contr.Idx) :
    (Cert.ReferenceIdeal.dot_S16x512x256_S256x32_S16x512x32_2_0_01_1_n_n.rhsIdx i q 1).val = (i 2).val := by
  unfold DotDims.rhsIdx
  rw [dif_neg (show ¬(1 : Fin Cert.ReferenceIdeal.S256x32.rank) ∈ Cert.ReferenceIdeal.dot_S16x512x256_S256x32_S16x512x32_2_0_01_1_n_n.rhsBatch by decide),
    dif_pos (show (1 : Fin Cert.ReferenceIdeal.S256x32.rank) ∈ Cert.ReferenceIdeal.dot_S16x512x256_S256x32_S16x512x32_2_0_01_1_n_n.rhsNonContracting by decide)]
  rfl

/-- The reference's contraction at (bb, n, ch): the sum over k of x(bb, n, k) · W(k, ch). -/
theorem ref_dot_apply (x : FVec Ideal S16x512x256 .f32) (w : FVec Ideal S256x32 .f32) (bb : Fin 16) (n : Fin 512) (ch : Fin 32) :
    Host.dotGeneral Cert.ReferenceIdeal.dot_S16x512x256_S256x32_S16x512x32_2_0_01_1_n_n none x w (ix3 bb n ch)
      = ∑ k : Fin 256, x (ix3 bb n k) * w (ix2 k ch) := by
  simp only [Host.dotGeneral]
  rw [Ideal.dotGeneral_apply, ← Equiv.sum_comp (contrEquiv1 Cert.ReferenceIdeal.dot_S16x512x256_S256x32_S16x512x32_2_0_01_1_n_n 256 rfl rfl).symm]
  refine Finset.sum_congr rfl fun k _ => ?_
  have hk := contrEquiv1_symm_val Cert.ReferenceIdeal.dot_S16x512x256_S256x32_S16x512x32_2_0_01_1_n_n 256 rfl rfl k
  have el : Cert.ReferenceIdeal.dot_S16x512x256_S256x32_S16x512x32_2_0_01_1_n_n.lhsIdx (ix3 bb n ch)
      ((contrEquiv1 Cert.ReferenceIdeal.dot_S16x512x256_S256x32_S16x512x32_2_0_01_1_n_n 256 rfl rfl).symm k) = ix3 bb n k :=
    funext fun a => Fin.ext (by
      match a with
      | ⟨0, _⟩ => exact lhs_axis0 _ _
      | ⟨1, _⟩ => exact lhs_axis1 _ _
      | ⟨2, _⟩ => exact (lhs_axis2 _ _).trans hk)
  have er : Cert.ReferenceIdeal.dot_S16x512x256_S256x32_S16x512x32_2_0_01_1_n_n.rhsIdx (ix3 bb n ch)
      ((contrEquiv1 Cert.ReferenceIdeal.dot_S16x512x256_S256x32_S16x512x32_2_0_01_1_n_n 256 rfl rfl).symm k) = ix2 k ch :=
    funext fun a => Fin.ext (by
      match a with
      | ⟨0, _⟩ => exact (rhs_axis0 _ _).trans hk
      | ⟨1, _⟩ => exact rhs_axis1 _ _)
  rw [el, er]

/-! ## The reference's bias at an index -/

/-- The bias broadcast [32] → [1, 1, 32] → [16, 512, 32] reads b(ch) at (bb, n, ch). -/
theorem ref_bias_apply (b : FVec Ideal S32 .f32) (bb : Fin 16) (n : Fin 512) (ch : Fin 32) :
    broadcastInDim Cert.ReferenceIdeal.S16x512x32 ![0, 1, 2] Cert.ReferenceIdeal.Gen.bcast_S1x1x32_S16x512x32_0_1_2
        (broadcastInDim Cert.ReferenceIdeal.S1x1x32 ![2] Cert.ReferenceIdeal.Gen.bcast_S32_S1x1x32_2 b) (ix3 bb n ch)
      = b (ix1 ch) := by
  refine (broadcastInDim_apply _ Cert.ReferenceIdeal.Gen.bcast_S1x1x32_S16x512x32_0_1_2 _ (ix3 bb n ch)
    (ix3 (⟨0, Nat.one_pos⟩ : Fin 1) (⟨0, Nat.one_pos⟩ : Fin 1) ch) (fun a => match a with
      | ⟨0, _⟩ => by show 0 = if (1 : Nat) = 1 then 0 else bb.val; rw [if_pos rfl]
      | ⟨1, _⟩ => by show 0 = if (1 : Nat) = 1 then 0 else n.val; rw [if_pos rfl]
      | ⟨2, _⟩ => by show ch.val = if (32 : Nat) = 1 then 0 else ch.val; rw [if_neg (by decide)])).trans ?_
  exact broadcastInDim_apply _ Cert.ReferenceIdeal.Gen.bcast_S32_S1x1x32_2 b
    (ix3 (⟨0, Nat.one_pos⟩ : Fin 1) (⟨0, Nat.one_pos⟩ : Fin 1) ch) (ix1 ch) (fun a => match a with
      | ⟨0, _⟩ => by show ch.val = if (32 : Nat) = 1 then 0 else ch.val; rw [if_neg (by decide)])

/-! ## The kernel's side at an index -/

/-- The flat row of (bb, n). -/
def flatRow (bb : Fin 16) (n : Fin 512) : Fin 8192 := ⟨bb.val * 512 + n.val, by omega⟩

/-- The folded result [8192, 32] → [16, 512, 32] reads the flat array at (bb · 512 + n, ch). -/
theorem fold_apply (y : FVec Ideal S8192x32 .f32) (bb : Fin 16) (n : Fin 512) (ch : Fin 32) :
    shapeCast S16x512x32 y shapeCasts_S8192x32_S16x512x32 (ix3 bb n ch) = y (ix2 (flatRow bb n) ch) :=
  shapeCast_apply y shapeCasts_S8192x32_S16x512x32 _ _ (by
    rw [Shape.rowMajor_val_two, Shape.rowMajor_val_three]
    show (bb.val * 512 + n.val) * 32 + ch.val = (bb.val * 512 + n.val) * 32 + ch.val
    rfl)

/-- The flattened rows [16, 512, 256] → [8192, 256] read x(bb, n, k) at (bb · 512 + n, k). -/
theorem flat_apply (x : FVec Ideal S16x512x256 .f32) (bb : Fin 16) (n : Fin 512) (k : Fin 256) :
    shapeCast S8192x256 x shapeCasts_S16x512x256_S8192x256 (ix2 (flatRow bb n) k) = x (ix3 bb n k) :=
  shapeCast_apply x shapeCasts_S16x512x256_S8192x256 _ _ (by
    rw [Shape.rowMajor_val_two, Shape.rowMajor_val_three]
    show (bb.val * 512 + n.val) * 256 + k.val = (bb.val * 512 + n.val) * 256 + k.val
    rfl)

/-- The bias as a row [32] → [1, 32] reads b(ch) at (0, ch). -/
theorem row_apply (b : FVec Ideal S32 .f32) (u : Fin 1) (ch : Fin 32) :
    shapeCast S1x32 b shapeCasts_S32_S1x32 (ix2 u ch) = b (ix1 ch) :=
  shapeCast_apply b shapeCasts_S32_S1x32 _ _ (by
    have hu : u.val = 0 := by omega
    rw [Shape.rowMajor_val_two, Shape.rowMajor_val_one]
    show ch.val = u.val * 32 + ch.val
    rw [hu, Nat.zero_mul, Nat.zero_add])

/-! ## The two projections agree -/

/-- The two projections at the index (bb, n, ch). -/
theorem proj_bridge_at (x : FVec Ideal S16x512x256 .f32) (w : FVec Ideal S256x32 .f32) (b : FVec Ideal S32 .f32)
    (bb : Fin 16) (n : Fin 512) (ch : Fin 32) :
    (shapeCast S16x512x32 (Cert.KernelIdeal.Spec.projRows (shapeCast S8192x256 x shapeCasts_S16x512x256_S8192x256) w (shapeCast S1x32 b shapeCasts_S32_S1x32)) shapeCasts_S8192x32_S16x512x32 : FVec Ideal S16x512x32 .f32) (ix3 bb n ch)
      = addf (Host.dotGeneral Cert.ReferenceIdeal.dot_S16x512x256_S256x32_S16x512x32_2_0_01_1_n_n none x w)
          (broadcastInDim Cert.ReferenceIdeal.S16x512x32 ![0, 1, 2] Cert.ReferenceIdeal.Gen.bcast_S1x1x32_S16x512x32_0_1_2 (broadcastInDim Cert.ReferenceIdeal.S1x1x32 ![2] Cert.ReferenceIdeal.Gen.bcast_S32_S1x1x32_2 b)) (ix3 bb n ch) := by
  rw [fold_apply]
  show (∑ k : Fin 256, shapeCast S8192x256 x shapeCasts_S16x512x256_S8192x256 (ix2 (flatRow bb n) k) * w (ix2 k ch))
      + shapeCast S1x32 b shapeCasts_S32_S1x32 (ix2 (0 : Fin 1) ch)
    = FloatOps.addf (Host.dotGeneral Cert.ReferenceIdeal.dot_S16x512x256_S256x32_S16x512x32_2_0_01_1_n_n none x w (ix3 bb n ch))
        (broadcastInDim Cert.ReferenceIdeal.S16x512x32 ![0, 1, 2] Cert.ReferenceIdeal.Gen.bcast_S1x1x32_S16x512x32_0_1_2
          (broadcastInDim Cert.ReferenceIdeal.S1x1x32 ![2] Cert.ReferenceIdeal.Gen.bcast_S32_S1x1x32_2 b) (ix3 bb n ch))
  rw [ref_dot_apply, ref_bias_apply, row_apply, Ideal.addf_def]
  congr 1
  exact Finset.sum_congr rfl fun k _ => by rw [flat_apply]

/-- The kernel's projection is the reference's. -/
theorem proj_bridge (x : FVec Ideal S16x512x256 .f32) (w : FVec Ideal S256x32 .f32) (b : FVec Ideal S32 .f32) :
    (shapeCast S16x512x32 (Cert.KernelIdeal.Spec.projRows (shapeCast S8192x256 x shapeCasts_S16x512x256_S8192x256) w (shapeCast S1x32 b shapeCasts_S32_S1x32)) shapeCasts_S8192x32_S16x512x32 : FVec Ideal S16x512x32 .f32)
      = addf (Host.dotGeneral Cert.ReferenceIdeal.dot_S16x512x256_S256x32_S16x512x32_2_0_01_1_n_n none x w)
          (broadcastInDim Cert.ReferenceIdeal.S16x512x32 ![0, 1, 2] Cert.ReferenceIdeal.Gen.bcast_S1x1x32_S16x512x32_0_1_2 (broadcastInDim Cert.ReferenceIdeal.S1x1x32 ![2] Cert.ReferenceIdeal.Gen.bcast_S32_S1x1x32_2 b)) := by
  funext i
  rw [eq_ix3 i]
  exact proj_bridge_at x w b (i 0) (i 1) (i 2)

end Cert.KernelIdeal.ProjBridge

end
-- ==== Proof.ResultSpec.lean ====
/-
  The result of both idealized programs as one function `G` of the five arguments: the concatenation, along the channel
  axis, of the first argument with the scattered grid of the projected rows `x · W + b`. The reference's form of the same
  function — `dot_general x W + broadcast b` scattered by the same chain of host operations — equals it: the two
  projections agree entry by entry, and the chain after the projection is the same on both sides.
-/
import proofs.«176654_j36103495090600_1_alg».proof.Proof.Spec
import proofs.«176654_j36103495090600_1_alg».proof.Proof.RefSpec
import proofs.«176654_j36103495090600_1_alg».proof.Proof.ProjBridge

noncomputable section

namespace Cert.KernelIdeal.Result

open Cert.KernelIdeal Cert.KernelIdeal.Gen
open Idealize.ShloMosaic Idealize.ShloMosaic.TcCoe Idealize.SL.Sem

section AnyF
variable {F : FTy → Type} [FloatOps F]

/-- Pieces of 48 and of 32 channels make up the 80 channels. -/
theorem cat_shapes : Shape.Concatenates [S16x48x256x256, S16x32x256x256] S16x80x256x256 1 := by decide

/-- The channel concatenation [16,48,256,256] ++ [16,32,256,256] → [16,80,256,256] as a plain function of its two pieces. -/
def cat (a : (⟨S16x48x256x256, .f32⟩ : BufTy).Contents (Elt F)) (b : (⟨S16x32x256x256, .f32⟩ : BufTy).Contents (Elt F)) :
    (⟨S16x80x256x256, .f32⟩ : BufTy).Contents (Elt F) :=
  concatenate S16x80x256x256 1 [⟨S16x48x256x256, a⟩, ⟨S16x32x256x256, b⟩] cat_shapes

/-- The same concatenation written over the reference program's shapes. -/
theorem cat_ref (a : (⟨S16x48x256x256, .f32⟩ : BufTy).Contents (Elt F)) (b : (⟨S16x32x256x256, .f32⟩ : BufTy).Contents (Elt F)) :
    concatenate Cert.ReferenceIdeal.S16x80x256x256 1 [⟨Cert.ReferenceIdeal.S16x48x256x256, a⟩, ⟨Cert.ReferenceIdeal.S16x32x256x256, b⟩]
      Cert.ReferenceIdeal.Gen.concatenates_S16x48x256x256_S16x32x256x256_S16x80x256x256_d1 = cat a b := rfl

/-- The scatter stretch is the same function over either program's constants. -/
theorem scatterMap_ref (proj : (⟨S16x512x32, .f32⟩ : BufTy).Contents (Elt F)) (loc : (⟨S16x512x2, .i32⟩ : BufTy).Contents (Elt F)) :
    Cert.ReferenceIdeal.Spec.scatterMap proj loc = Cert.KernelIdeal.Spec.scatterMap proj loc := rfl

end AnyF

/-- The result as one function of the five arguments. -/
def G (a0 : FVec Ideal S16x48x256x256 .f32) (a1 : FVec Ideal S16x512x256 .f32)
    (a2 : FVec Ideal S256x32 .f32) (a3 : FVec Ideal S32 .f32)
    (a4 : IVec S16x512x2 32) : FVec Ideal S16x80x256x256 .f32 :=
  cat (F := Ideal) a0 (Cert.KernelIdeal.Spec.scatterMap (F := Ideal)
    (shapeCast S16x512x32 (Cert.KernelIdeal.Spec.projRows (shapeCast S8192x256 a1 shapeCasts_S16x512x256_S8192x256) a2
      (shapeCast S1x32 a3 shapeCasts_S32_S1x32)) shapeCasts_S8192x32_S16x512x32) a4)

/-- The reference's composed term is `G` of its arguments. -/
theorem reference_result
    (a0 : FVec Ideal S16x48x256x256 .f32) (a1 : FVec Ideal S16x512x256 .f32)
    (a2 : FVec Ideal S256x32 .f32) (a3 : FVec Ideal S32 .f32)
    (a4 : IVec S16x512x2 32) :
    cat (F := Ideal) a0 (Cert.ReferenceIdeal.Spec.scatterMap (F := Ideal)
      (addf (F := Ideal) (Host.dotGeneral Cert.ReferenceIdeal.dot_S16x512x256_S256x32_S16x512x32_2_0_01_1_n_n none a1 a2)
        (broadcastInDim Cert.ReferenceIdeal.S16x512x32 ![0, 1, 2] Cert.ReferenceIdeal.Gen.bcast_S1x1x32_S16x512x32_0_1_2
          (broadcastInDim Cert.ReferenceIdeal.S1x1x32 ![2] Cert.ReferenceIdeal.Gen.bcast_S32_S1x1x32_2 a3))) a4)
      = G a0 a1 a2 a3 a4 := by
  rw [scatterMap_ref, ← Cert.KernelIdeal.ProjBridge.proj_bridge a1 a2 a3]
  rfl

end Cert.KernelIdeal.Result

end
-- ==== Proof.KernelResult.lean ====
/-
  The kernel program's result buffer ends at `G` of the launch contents of the arguments: the concatenation region's
  output array is the concatenation of its two input arrays; the second of these the scatter stretch computed from the
  projection region's output array; that array is `x · W + b` of what the two reshapes left.
-/
import proofs.«176654_j36103495090600_1_alg».proof.Proof.KiRun
import proofs.«176654_j36103495090600_1_alg».proof.Proof.HostK
import proofs.«176654_j36103495090600_1_alg».proof.Proof.Val0
import proofs.«176654_j36103495090600_1_alg».proof.Proof.Val1
import proofs.«176654_j36103495090600_1_alg».proof.Proof.ResultSpec

noncomputable section

namespace Cert.KernelIdeal.Result

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- The kernel program's result buffer ends at `G` of the launch contents of the arguments: the concatenation region's
    output array is the concatenation of its two input arrays, the second of which the scatter stretch computed from the
    projection region's output array, which is `x · W + b` of the two reshapes' results. -/
theorem kernel_result (c : Dev nD) :
    W4 m ρ c (Proc.devRef .tc main_v33)
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e0 : V3 m ρ c main_arg0 = m ((c.tc : Thread nD τ).loc main_arg0) := Cert.KernelIdeal.HostK.W3_arg0 m ρ c
  have e1 : V3 m ρ c main_v32 = Cert.KernelIdeal.Spec.scatterMap
      (shapeCast S16x512x32 (W2 m ρ c (Proc.devRef .tc main_v2)) shapeCasts_S8192x32_S16x512x32)
      (m ((c.tc : Thread nD τ).loc main_arg4)) := Cert.KernelIdeal.HostK.W3_v32 m ρ c
  have e2 : W2 m ρ c (Proc.devRef .tc main_v2)
      = Cert.KernelIdeal.Spec.projRows (V1 m ρ c main_v0) (V1 m ρ c main_arg2) (V1 m ρ c main_v1) :=
    (W2_main_v2 m ρ c).trans (Cert.KernelIdeal.Val0.arr0_eq (V1 m ρ) c)
  have e3 : V1 m ρ c main_v0 = shapeCast S8192x256 (m ((c.tc : Thread nD τ).loc main_arg1)) shapeCasts_S16x512x256_S8192x256 :=
    Cert.KernelIdeal.HostK.W1_v0 m ρ c
  have e4 : V1 m ρ c main_arg2 = m ((c.tc : Thread nD τ).loc main_arg2) := Cert.KernelIdeal.HostK.W1_arg2 m ρ c
  have e5 : V1 m ρ c main_v1 = shapeCast S1x32 (m ((c.tc : Thread nD τ).loc main_arg3)) shapeCasts_S32_S1x32 :=
    Cert.KernelIdeal.HostK.W1_v1 m ρ c
  rw [W4_main_v33, Cert.KernelIdeal.Val1.arr1_eq (V3 m ρ) c cat_shapes]
  change cat (V3 m ρ c main_arg0) (V3 m ρ c main_v32) = _
  rw [e0, e1, e2, e3, e4, e5]
  rfl

end Cert.KernelIdeal.Result

end
-- ==== Proof.LibBinaryApply.lean ====
import Idealize.ShloMosaic.Lib.StableHlo.Run

noncomputable section

/-! # A host operation of two operands, its result with the operands as plain arguments

An operation over two references leaves, at its result buffer, its function of the two operands' contents. Here that
value is written `apply2 f X Y` with the function kept unapplied and the two contents as ordinary arguments, each read at
its own reference, so that a one-pass reader of a line of operations rewrites the two reads before the function is
applied to them. A function that puts its operands in a place whose type a later argument depends on — the piece list
of a two-piece concatenation, whose evidence speaks of the pieces' shapes — otherwise hides them from the reader. -/

namespace Cert.Binary2

open Idealize.ShloMosaic Idealize.ShloMosaic.StableHlo

variable {τ : Topo} {sig : RefSig} {Val : EltTy → Type} {a b y : Ref sig .tc}

/-- A function of two contents, applied to them one by one. -/
def apply2 (f : a.ty.Contents Val → b.ty.Contents Val → y.ty.Contents Val)
    (X : a.ty.Contents Val) (Y : b.ty.Contents Val) : y.ty.Contents Val :=
  f X Y

/-- The result of an operation over two references, the operands as plain arguments. -/
theorem binary_result_apply (f : a.ty.Contents Val → b.ty.Contents Val → y.ty.Contents Val) (ha hb hy)
    (F : Valuation τ sig Val) :
    (binary (τ := τ) a b y f ha hb hy).result F (Proc.devRef .tc y)
      = apply2 f (F (Proc.devRef .tc a)) (F (Proc.devRef .tc b)) :=
  binary_result a b y f ha hb hy F

/-- The same, with the result reference un-indexed, for a one-pass reader. -/
theorem binary_result_apply' (f : a.ty.Contents Val → b.ty.Contents Val → y.ty.Contents Val) (ha hb hy)
    (F : Valuation τ sig Val) :
    (binary (τ := τ) a b y f ha hb hy).result F (no_index (Proc.devRef .tc y))
      = apply2 f (F (Proc.devRef .tc a)) (F (Proc.devRef .tc b)) :=
  binary_result a b y f ha hb hy F

end Cert.Binary2

end
-- ==== Proof.RefBridge.lean ====
/-
  The reference run's composed term, read as the concatenation of the first argument with the scatter stretch applied to
  the reference's projection, and hence as the function `G` of the arguments that the kernel program computes.
-/
import proofs.«176654_j36103495090600_1_alg».proof.Proof.ResultSpec
import proofs.«176654_j36103495090600_1_alg».proof.Proof.RefRun

noncomputable section

namespace Cert.ReferenceIdeal.Result

open Cert.ReferenceIdeal Cert.ReferenceIdeal.Gen
open Idealize.ShloMosaic Idealize.ShloMosaic.TcCoe Idealize.SL.Sem

/-- The run's composed term of the operations, as a function of the five arguments' contents. -/
def term {F : FTy → Type} [FloatOps F] (a0 : FVec F S16x48x256x256 .f32) (a1 : FVec F S16x512x256 .f32)
    (a2 : FVec F S256x32 .f32) (a3 : FVec F S32 .f32)
    (a4 : IVec S16x512x2 32) : FVec F S16x80x256x256 .f32 :=
  concatenate S16x80x256x256 1 [⟨S16x48x256x256, a0⟩, ⟨S16x32x256x256, (transpose S16x32x256x256 [0, 3, 1, 2] (Host.scatter scatter_S16x256x256x32_S16x512x3_S16x512x32_2_012_012_2 (fun _ b => b) (broadcastInDim S16x256x256x32 ![] bcast_S_S16x256x256x32 (constant S_ .f32 0x00000000#32)) (concatenate S16x512x3 2 [⟨S16x512x1, (broadcastInDim S16x512x1 ![0, 1] bcast_S16x512_S16x512x1_0_1 (broadcastInDim S16x512 ![0, 1] bcast_S16x1_S16x512_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x512x1, (broadcastInDim S16x512x1 ![0, 1] bcast_S16x512_S16x512x1_0_1 (select (cmpi .slt (shapeCast _ (extractStridedSlice S16x512x1 ![0, 0, 0] a4 slices_S16x512x2_S16x512x1_0_0_0) shapeCasts_S16x512x1_S16x512) (broadcastInDim S16x512 ![] bcast_S_S16x512 (constantI S_ 32 0#32))) (addi (shapeCast _ (extractStridedSlice S16x512x1 ![0, 0, 0] a4 slices_S16x512x2_S16x512x1_0_0_0) shapeCasts_S16x512x1_S16x512) (broadcastInDim S16x512 ![] bcast_S_S16x512 (constantI S_ 32 256#32))) (shapeCast _ (extractStridedSlice S16x512x1 ![0, 0, 0] a4 slices_S16x512x2_S16x512x1_0_0_0) shapeCasts_S16x512x1_S16x512)))⟩, ⟨S16x512x1, (broadcastInDim S16x512x1 ![0, 1] bcast_S16x512_S16x512x1_0_1 (select (cmpi .slt (shapeCast _ (extractStridedSlice S16x512x1 ![0, 0, 1] a4 slices_S16x512x2_S16x512x1_0_0_1) shapeCasts_S16x512x1_S16x512) (broadcastInDim S16x512 ![] bcast_S_S16x512 (constantI S_ 32 0#32))) (addi (shapeCast _ (extractStridedSlice S16x512x1 ![0, 0, 1] a4 slices_S16x512x2_S16x512x1_0_0_1) shapeCasts_S16x512x1_S16x512) (broadcastInDim S16x512 ![] bcast_S_S16x512 (constantI S_ 32 256#32))) (shapeCast _ (extractStridedSlice S16x512x1 ![0, 0, 1] a4 slices_S16x512x2_S16x512x1_0_0_1) shapeCasts_S16x512x1_S16x512)))⟩] concatenates_S16x512x1_S16x512x1_S16x512x1_S16x512x3_d2) (addf (Host.dotGeneral dot_S16x512x256_S256x32_S16x512x32_2_0_01_1_n_n none a1 a2) (broadcastInDim S16x512x32 ![0, 1, 2] bcast_S1x1x32_S16x512x32_0_1_2 (broadcastInDim S1x1x32 ![2] bcast_S32_S1x1x32_2 a3)))) transposes_S16x256x256x32_S16x32x256x256_0_3_1_2)⟩] concatenates_S16x48x256x256_S16x32x256x256_S16x80x256x256_d1

/-- For every float instance the composed term is the concatenation of the first argument with the scatter stretch of
    the reference's projection: the same operations, grouped. -/
theorem term_cat {F : FTy → Type} [FloatOps F] (a0 : FVec F S16x48x256x256 .f32) (a1 : FVec F S16x512x256 .f32)
    (a2 : FVec F S256x32 .f32) (a3 : FVec F S32 .f32)
    (a4 : IVec S16x512x2 32) :
    term a0 a1 a2 a3 a4 = Cert.KernelIdeal.Result.cat (F := F) a0 (Cert.ReferenceIdeal.Spec.scatterMap (F := F)
      (addf (F := F) (Host.dotGeneral dot_S16x512x256_S256x32_S16x512x32_2_0_01_1_n_n none a1 a2)
        (broadcastInDim S16x512x32 ![0, 1, 2] bcast_S1x1x32_S16x512x32_0_1_2 (broadcastInDim S1x1x32 ![2] bcast_S32_S1x1x32_2 a3))) a4) := rfl

/-- At the extended reals the composed term is `G` of the arguments. -/
theorem term_eq (a0 : FVec Ideal S16x48x256x256 .f32) (a1 : FVec Ideal S16x512x256 .f32)
    (a2 : FVec Ideal S256x32 .f32) (a3 : FVec Ideal S32 .f32)
    (a4 : IVec S16x512x2 32) :
    term (F := Ideal) a0 a1 a2 a3 a4 = Cert.KernelIdeal.Result.G a0 a1 a2 a3 a4 :=
  (term_cat a0 a1 a2 a3 a4).trans (Cert.KernelIdeal.Result.reference_result a0 a1 a2 a3 a4)

end Cert.ReferenceIdeal.Result

end
-- ==== Proof.lean ====
/-
  The certificate's five claims.
  The kernel program is two host stretches and two kernel regions: the input rows flattened and multiplied by the weight
  matrix, plus the bias (a row-blocked matrix product); the projected rows scattered on the host into a zero grid at the
  given locations, channels moved second; and the first argument concatenated with that grid along the channel axis
  (a blockwise copy). Its frame, at the word level and at the extended reals, is the run of those four segments with every
  unscoped buffer's contents named at each boundary: no host operation writes an argument and a region only reads one.
  The reference is a host program; its frame is its run. The idealization rewrote no operation, so nothing is to be
  preserved. The two idealized programs agree: both results are one function `G` of the arguments — the kernel's because
  each region's output array is read off its pipeline's record block by block, the reference's because its composed term
  regroups to the same concatenation of the same scatter, the two projections being the same sums re-indexed.
-/
import proofs.«176654_j36103495090600_1_alg».proof.Defs
import proofs.«176654_j36103495090600_1_alg».proof.Proof.Gen.Kernel
import proofs.«176654_j36103495090600_1_alg».proof.Proof.Gen.KernelIdeal
import proofs.«176654_j36103495090600_1_alg».proof.Proof.Gen.ReferenceIdeal
import proofs.«176654_j36103495090600_1_alg».proof.Proof.Gen.Pre_finite_inputs
import proofs.«176654_j36103495090600_1_alg».proof.Proof.KbRun
import proofs.«176654_j36103495090600_1_alg».proof.Proof.KernelResult
import proofs.«176654_j36103495090600_1_alg».proof.Proof.RefBridge
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : @Cert.frame_Kernel Cert.Kernel.Gen.facts Cert.Pre_finite_inputs.Gen.facts :=
  fun m ρ _ => Cert.Kernel.Hand.frame m ρ

/-- The idealized program runs and leaves its arguments as launched. -/
theorem frame_kernelIdeal : @Cert.frame_KernelIdeal Cert.KernelIdeal.Gen.facts Cert.Pre_finite_inputs.Gen.facts :=
  fun m ρ _ => Cert.KernelIdeal.Hand.frame m ρ

/-- The reference runs and leaves its arguments as launched: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RunP.run (F := Ideal) m ρ)

/-- From memories agreeing on the arguments both idealized programs end with the result `G` of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Result.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Result.kernel_result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.RunP.run (F := Ideal) m' ρ')
    refine (Cert.ReferenceIdeal.Result.term_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))).trans ?_
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
